-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4 : Shape := ⟨2, ![512, 4]⟩
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : IVec S512x4 32) (main_arg1 : FVec F S512x256 .f32) : IVec S_ 1 :=
  let main_v0 : FVec F S512x256 .f32 := Host.absf main_arg1
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S512x4 : Shape := ⟨2, ![512, 4]⟩
abbrev S512x256 : Shape := ⟨2, ![512, 256]⟩
abbrev S512x1x4 : Shape := ⟨3, ![512, 1, 4]⟩
abbrev S1x512x4 : Shape := ⟨3, ![1, 512, 4]⟩
abbrev S512x512x4 : Shape := ⟨3, ![512, 512, 4]⟩
abbrev S_ : Shape := ⟨0, ![]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S1x512 : Shape := ⟨2, ![1, 512]⟩
abbrev S32x512 : Shape := ⟨2, ![32, 512]⟩
abbrev S32x128 : Shape := ⟨2, ![32, 128]⟩
abbrev S32x1 : Shape := ⟨2, ![32, 1]⟩
abbrev S32x128x1 : Shape := ⟨3, ![32, 128, 1]⟩
abbrev S32x1x512 : Shape := ⟨3, ![32, 1, 512]⟩
abbrev S32x128x512 : Shape := ⟨3, ![32, 128, 512]⟩
abbrev S32 : Shape := ⟨1, ![32]⟩

abbrev nBuf : Space → Nat
  | .hbm => 62
  | .vmem => 15
  | .smem => 0
  | _ => 0

abbrev bufTy : (tb : Table) → Fin (tcTables nBuf tb) → BufTy
  | .hbm, ⟨0, _⟩ => ⟨S512x4, .i32⟩
  | .hbm, ⟨1, _⟩ => ⟨S512x256, .f32⟩
  | .hbm, ⟨2, _⟩ => ⟨S512x1x4, .i32⟩
  | .hbm, ⟨3, _⟩ => ⟨S1x512x4, .i32⟩
  | .hbm, ⟨4, _⟩ => ⟨S512x512x4, .i32⟩
  | .hbm, ⟨5, _⟩ => ⟨S512x512x4, .i32⟩
  | .hbm, ⟨6, _⟩ => ⟨S512x512x4, .i1⟩
  | .hbm, ⟨7, _⟩ => ⟨S_, .i1⟩
  | .hbm, ⟨8, _⟩ => ⟨S512x512, .i1⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .i1⟩
  | .hbm, ⟨16, _⟩ => ⟨S512x512, .i1⟩
  | .hbm, ⟨17, _⟩ => ⟨S512x512, .f32⟩
  | .hbm, ⟨18, _⟩ => ⟨S512x512, .i1⟩
  | .hbm, ⟨19, _⟩ => ⟨S512x512, .i1⟩
  | .hbm, ⟨20, _⟩ => ⟨S512x512, .f32⟩
  | .hbm, ⟨21, _⟩ => ⟨S512x1x4, .i32⟩
  | .hbm, ⟨22, _⟩ => ⟨S1x512x4, .i32⟩
  | .hbm, ⟨23, _⟩ => ⟨S512x512x4, .i32⟩
  | .hbm, ⟨24, _⟩ => ⟨S512x512x4, .i32⟩
  | .hbm, ⟨25, _⟩ => ⟨S512x512x4, .i32⟩
  | .hbm, ⟨26, _⟩ => ⟨S512x512x4, .i32⟩
  | .hbm, ⟨27, _⟩ => ⟨S_, .i32⟩
  | .hbm, ⟨28, _⟩ => ⟨S512x512, .i32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x1, .f32⟩
  | .hbm, ⟨36, _⟩ => ⟨S512, .f32⟩
  | .hbm, ⟨37, _⟩ => ⟨S_, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S512, .f32⟩
  | .hbm, ⟨44, _⟩ => ⟨S512, .i1⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S512x256, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | _, _ => ⟨S512x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_1 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_16 : BitVec 32 := 0#32
  let v35 : BitVec 1 := Scalar.cmpi .ne v34 c0_i32_16
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S512x4_S512x1x4_0_2 : S512x4.BroadcastsInDim S512x1x4 (![0, 2] : Fin 2 → Fin S512x1x4.rank)
  bcast_S512x4_S1x512x4_1_2 : S512x4.BroadcastsInDim S1x512x4 (![1, 2] : Fin 2 → Fin S1x512x4.rank)
  bcast_S512x1x4_S512x512x4_0_1_2 : S512x1x4.BroadcastsInDim S512x512x4 (![0, 1, 2] : Fin 3 → Fin S512x512x4.rank)
  bcast_S1x512x4_S512x512x4_0_1_2 : S1x512x4.BroadcastsInDim S512x512x4 (![0, 1, 2] : Fin 3 → Fin S512x512x4.rank)
  reducesTo_S512x512x4_S512x512_d2 : S512x512x4.ReducesTo [2] S512x512
  h_S_ : 0 < S_.numel
  bcast_S_S512x512 : S_.BroadcastsInDim S512x512 (![] : Fin 0 → Fin S512x512.rank)
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  shapeCasts_S32x512_S32x1x512 : S32x512.ShapeCasts S32x1x512
  broadcasts_S32x128x1_S32x128x512 : S32x128x1.Broadcasts S32x128x512
  broadcasts_S32x1x512_S32x128x512 : S32x1x512.Broadcasts S32x128x512
  reduces_S32x128x512_S32x128 : S32x128x512.Reduces [2] S32x128
  reduces_S32x128_S32 : S32x128.Reduces [1] S32
  shapeCasts_S32_S32x1 : S32.ShapeCasts S32x1
  shapeCasts_S512x1_S512 : S512x1.ShapeCasts S512
  reducesTo_S512x512_S512_d1 : S512x512.ReducesTo [1] S512
  bcast_S_S512 : S_.BroadcastsInDim S512 (![] : Fin 0 → Fin S512.rank)
  natLt_1_32 : 1 < 32
  reducesTo_S512_S_d0 : S512.ReducesTo [0] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S512x512.size a
  hwx1_0 : ∀ i : grid1.Coords, EltTy.bits .f32 = 32 ∨ (Rect.block (s := S512x512) S32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S512x512.size a
  hwx1_1 : ∀ i : grid1.Coords, EltTy.bits .f32 = 32 ∨ (Rect.block (s := S512x512) S32x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S512x512.size a
  hwx1_2 : ∀ i : grid1.Coords, EltTy.bits .f32 = 32 ∨ (Rect.block (s := S512x512) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S512x512.size a
  hwx1_3 : ∀ i : grid1.Coords, EltTy.bits .f32 = 32 ∨ (Rect.block (s := S512x512) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128.size a ≤ S512x512.size a
  hwx1_4 : ∀ i : grid1.Coords, EltTy.bits .f32 = 32 ∨ (Rect.block (s := S512x512) S32x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S512x1.size a
  hwx1_5 : ∀ i : grid1.Coords, EltTy.bits .f32 = 32 ∨ (Rect.block (s := S512x1) S32x1.size (cc1_transform_5 i) (hinb1_5 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg1) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v28) S32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S32x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S32x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S32x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S512x4 : Shape := ⟨2, ![512, 4]⟩
abbrev S512x256 : Shape := ⟨2, ![512, 256]⟩
abbrev S_ : Shape := ⟨0, ![]⟩
abbrev S512 : Shape := ⟨1, ![512]⟩
abbrev S256x512 : Shape := ⟨2, ![256, 512]⟩
abbrev S512x512 : Shape := ⟨2, ![512, 512]⟩
abbrev S512x1 : Shape := ⟨2, ![512, 1]⟩
abbrev S1x512 : Shape := ⟨2, ![1, 512]⟩
abbrev S512x1x4 : Shape := ⟨3, ![512, 1, 4]⟩
abbrev S1x512x4 : Shape := ⟨3, ![1, 512, 4]⟩
abbrev S512x512x4 : Shape := ⟨3, ![512, 512, 4]⟩
abbrev S512x1x512 : Shape := ⟨3, ![512, 1, 512]⟩
abbrev S512x512x1 : Shape := ⟨3, ![512, 512, 1]⟩
abbrev S512x512x512 : Shape := ⟨3, ![512, 512, 512]⟩

abbrev nBuf : Space → Nat
  | .hbm => 97
  | .vmem => 0
  | .smem => 0
  | _ => 0

abbrev bufTy : (tb : Table) → Fin (tcTables nBuf tb) → BufTy
  | .hbm, ⟨0, _⟩ => ⟨S512x4, .i32⟩
  | .hbm, ⟨1, _⟩ => ⟨S512x256, .f32⟩
  | .hbm, ⟨2, _⟩ => ⟨S512x256, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S256x512, .f32⟩
  | .hbm, ⟨13, _⟩ => ⟨S512x512, .f32⟩
  | .hbm, ⟨14, _⟩ => ⟨S512x1, .f32⟩
  | .hbm, ⟨15, _⟩ => ⟨S1x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x1x4, .i32⟩
  | .hbm, ⟨21, _⟩ => ⟨S1x512x4, .i32⟩
  | .hbm, ⟨22, _⟩ => ⟨S512x512x4, .i32⟩
  | .hbm, ⟨23, _⟩ => ⟨S512x512x4, .i32⟩
  | .hbm, ⟨24, _⟩ => ⟨S512x512x4, .i1⟩
  | .hbm, ⟨25, _⟩ => ⟨S_, .i1⟩
  | .hbm, ⟨26, _⟩ => ⟨S512x512, .i1⟩
  | .hbm, ⟨27, _⟩ => ⟨S512x1x4, .i32⟩
  | .hbm, ⟨28, _⟩ => ⟨S1x512x4, .i32⟩
  | .hbm, ⟨29, _⟩ => ⟨S512x512x4, .i32⟩
  | .hbm, ⟨30, _⟩ => ⟨S512x512x4, .i32⟩
  | .hbm, ⟨31, _⟩ => ⟨S512x512x4, .i32⟩
  | .hbm, ⟨32, _⟩ => ⟨S512x512x4, .i32⟩
  | .hbm, ⟨33, _⟩ => ⟨S_, .i32⟩
  | .hbm, ⟨34, _⟩ => ⟨S512x512, .i32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S512x512, .i1⟩
  | .hbm, ⟨46, _⟩ => ⟨S512x512, .i1⟩
  | .hbm, ⟨47, _⟩ => ⟨S512x512, .i1⟩
  | .hbm, ⟨48, _⟩ => ⟨S512x512, .i1⟩
  | .hbm, ⟨49, _⟩ => ⟨S512x1x512, .f32⟩
  | .hbm, ⟨50, _⟩ => ⟨S512x512x1, .f32⟩
  | .hbm, ⟨51, _⟩ => ⟨S512x512x512, .f32⟩
  | .hbm, ⟨52, _⟩ => ⟨S512x512x512, .f32⟩
  | .hbm, ⟨53, _⟩ => ⟨S512x512x512, .f32⟩
  | .hbm, ⟨54, _⟩ => ⟨S512x1x512, .f32⟩
  | .hbm, ⟨55, _⟩ => ⟨S512x512x512, .f32⟩
  | .hbm, ⟨56, _⟩ => ⟨S512x512x512, .f32⟩
  | .hbm, ⟨57, _⟩ => ⟨S_, .f32⟩
  | .hbm, ⟨58, _⟩ => ⟨S512x512x512, .f32⟩
  | .hbm, ⟨59, _⟩ => ⟨S512x512x512, .f32⟩
  | .hbm, ⟨60, _⟩ => ⟨S512x512x1, .i1⟩
  | .hbm, ⟨61, _⟩ => ⟨S512x1x512, .i1⟩
  | .hbm, ⟨62, _⟩ => ⟨S512x512x512, .i1⟩
  | .hbm, ⟨63, _⟩ => ⟨S512x512x512, .i1⟩
  | .hbm, ⟨64, _⟩ => ⟨S512x512x512, .i1⟩
  | .hbm, ⟨65, _⟩ => ⟨S512x512x512, .f32⟩
  | .hbm, ⟨66, _⟩ => ⟨S512x512x512, .f32⟩
  | .hbm, ⟨67, _⟩ => ⟨S_, .f32⟩
  | .hbm, ⟨68, _⟩ => ⟨S512, .f32⟩
  | .hbm, ⟨69, _⟩ => ⟨S512x512, .i32⟩
  | .hbm, ⟨70, _⟩ => ⟨S_, .i32⟩
  | .hbm, ⟨71, _⟩ => ⟨S512, .i32⟩
  | .hbm, ⟨72, _⟩ => ⟨S512x512, .i32⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S_, .i32⟩
  | .hbm, ⟨77, _⟩ => ⟨S512, .i32⟩
  | .hbm, ⟨78, _⟩ => ⟨S512, .i1⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S_, .f32⟩
  | .hbm, ⟨86, _⟩ => ⟨S512, .f32⟩
  | .hbm, ⟨87, _⟩ => ⟨S512, .f32⟩
  | .hbm, ⟨88, _⟩ => ⟨S512, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S512x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_c_7 : Ref sig .tc := ⟨.hbm, 70, rfl⟩
abbrev main_v59 : Ref sig .tc := ⟨.hbm, 71, rfl⟩
abbrev main_v60 : Ref sig .tc := ⟨.hbm, 72, rfl⟩
abbrev main_c_8 : Ref sig .tc := ⟨.hbm, 73, rfl⟩
abbrev main_v61 : Ref sig .tc := ⟨.hbm, 74, rfl⟩
abbrev main_v62 : Ref sig .tc := ⟨.hbm, 75, rfl⟩
abbrev main_c_9 : Ref sig .tc := ⟨.hbm, 76, rfl⟩
abbrev main_v63 : Ref sig .tc := ⟨.hbm, 77, rfl⟩
abbrev main_v64 : Ref sig .tc := ⟨.hbm, 78, rfl⟩
abbrev main_c_10 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_call0_v0 : Ref sig .tc := ⟨.hbm, 85, rfl⟩
abbrev main_call0_v1 : Ref sig .tc := ⟨.hbm, 86, rfl⟩
abbrev main_v69 : Ref sig .tc := ⟨.hbm, 87, rfl⟩
abbrev main_v70 : Ref sig .tc := ⟨.hbm, 88, rfl⟩
abbrev main_c_12 : Ref sig .tc := ⟨.hbm, 89, rfl⟩
abbrev main_v71 : Ref sig .tc := ⟨.hbm, 90, rfl⟩
abbrev main_c_13 : Ref sig .tc := ⟨.hbm, 91, rfl⟩
abbrev main_v72 : Ref sig .tc := ⟨.hbm, 92, rfl⟩
abbrev main_v73 : Ref sig .tc := ⟨.hbm, 93, rfl⟩
abbrev main_cst_14 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S_S512 : S_.BroadcastsInDim S512 (![] : Fin 0 → Fin S512.rank)
  transposes_S512x256_S256x512_1_0 : S512x256.Transposes [1, 0] S256x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x4_S512x1x4_0_2 : S512x4.BroadcastsInDim S512x1x4 (![0, 2] : Fin 2 → Fin S512x1x4.rank)
  bcast_S512x4_S1x512x4_1_2 : S512x4.BroadcastsInDim S1x512x4 (![1, 2] : Fin 2 → Fin S1x512x4.rank)
  bcast_S512x1x4_S512x512x4_0_1_2 : S512x1x4.BroadcastsInDim S512x512x4 (![0, 1, 2] : Fin 3 → Fin S512x512x4.rank)
  bcast_S1x512x4_S512x512x4_0_1_2 : S1x512x4.BroadcastsInDim S512x512x4 (![0, 1, 2] : Fin 3 → Fin S512x512x4.rank)
  reducesTo_S512x512x4_S512x512_d2 : S512x512x4.ReducesTo [2] S512x512
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S512_d1_2 : S512x512x512.ReducesTo [1, 2] S512
  natLt_1_32 : 1 < 32
  reducesTo_S512x512_S512_d1 : S512x512.ReducesTo [1] S512
  reducesTo_S512_S_d0 : S512.ReducesTo [0] S_
  dot_S512x256_S256x512_S512x512_1_0_0_1_n_n_wf : DotDims.WF S512x256 S256x512 S512x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

class Facts : Prop extends Facts₀ where

variable [Facts]
-- ==== Proof.BitsCosRegion.lean ====
/-
  The cosine-similarity call (the program's first kernel region) on one grid point: the whole feature array is
  staged, the body stores ONE value into the whole output block — the normalised Gram matrix of the rows — and the
  block is written back. This module states, for any contents `V` of the core's buffers at the region's entry, what
  the output's staging buffer holds after the body (`cosOut`), the body's triple, the proof data of the pipeline
  and its body obligation. Everything is stated at any float instance.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at the point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-buffer rectangles the body reads and writes through. -/
abbrev rFeat : Rect S512x256 := Rect.unit (s := S512x256) ![0, 0] S512x256.size inb_S512x256_S512x256_0_0
abbrev rCos : Rect S512x512 := Rect.unit (s := S512x512) ![0, 0] S512x512.size inb_S512x512_S512x512_0_0

/-- What the body leaves in the output's staging buffer: its one store, of the normalised Gram matrix of the
    staged features. -/
def cosOut (x0 : Vec F S512x256 .f32) : Vec F S512x512 .f32 :=
  View.canon [⟨rCos, k0_pay1 (View.ld x0 rFeat)⟩]

/-- The one store covers the buffer. -/
theorem cosCover (p0 : Vec F S512x512 .f32) (y : S512x512.Idx) :
    ∃ pc ∈ ([⟨rCos, p0⟩] : List (View.Piece (Elt F) S512x512 .f32)), y ∈ pc.1.set :=
  View.cover_of_tiled [⟨rCos, p0⟩] S512x512.size (by rfl) y

set_option maxHeartbeats 1000000 in
/-- The body on whole staging memrefs, the features' at `x0` and the output's at anything, runs to the continuation
    with the features' as they were and the output's at `cosOut x0`. -/
theorem sound_kernel0 (c : Dev nD) (E : Set ℕ) (i : grid0.Coords) (arg1 : Memref sig .tc .vmem S512x256 .f32) (harg1 : arg1.IsWhole)
    (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (cosOut x0)) -∗ K ⟨⟩))
      ⊢ wp frame (wpE (defs₀ (F := F)) Variants.none c none) E (cc0__cos_kernel i arg1 harg1 arg2 harg2) K := by
  simp only [cc0__cos_kernel_eq_skeleton]; unfold cc0__cos_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cosCover _)

/-- The proof data of the cosine call on core `c`: the arrays as the region finds them; after the body the
    features' buffer at its block and the output's at `cosOut` of it; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => cosOut (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = cosOut (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at the one point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsHingeRuns.lean ====
/-
  The hinge call (the program's second kernel region) visits a 16 × 4 grid: a row tile of 32 rows, and for it four
  column tiles of 128 columns. The body keeps a 32 × 1 running sum in a scratch buffer: it zeroes it at the first
  column tile, adds this tile's partial row sums at every tile, and copies it to the output block at the last one.
  This module states the two branch conditions over the grid, where the output window is idle, and the body's triple
  in each of the three cases the grid meets (first tile; a middle tile; last tile), each with the scratch's and the
  output's contents named through the body's one arithmetic payload. Everything is stated at any float instance.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body zeroes its running sum: the column-tile coordinate is 0. -/
abbrev condReset (i : grid1.Coords) : Prop := (Scalar.cmpi .ne (Scalar.extui (Scalar.cmpi .eq (BitVec.ofNat 32 (i 1).val) 0#32)) 0#32) = 1#1
theorem hcondReset : ∀ t : Fin cfg1.N, condReset (grid1.coords t) ↔ t.val % 4 = 0 :=
  (by decide +kernel : ∀ t : Fin grid1.N, condReset (grid1.coords t) ↔ t.val % 4 = 0)

/-- The body copies its running sum out: the column-tile coordinate is 3. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle and is not written back. -/
theorem idleAt1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
/-- At the last column tile it is live. -/
theorem liveAt1_5 : ∀ t : Fin cfg1.N, condLast (grid1.coords t) → cfg1.idle 5 (grid1.coords t) = false := by decide +kernel

/-! ## Whole-buffer rectangles -/

theorem off2_zero : (![0, 0] : Fin 2 → Nat) = fun _ => 0 := by funext a; fin_cases a <;> rfl

/-- A store through the whole buffer, last, covers it whatever came before. -/
theorem cover_whole_cons {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

/-! ## The body's triple, case by case -/

set_option maxHeartbeats 4000000 in
/-- FIRST column tile: the running sum, whatever it held, ends at this tile's partial sums over zero; the output's
    buffer is handed back as found. -/
theorem run_first (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : condReset i) (hc1 : ¬condLast i)
    (x0 : Vec F S32x512 .f32) (x1 : Vec F S32x512 .f32) (x2 : Vec F S32x128 .f32) (x3 : Vec F S32x128 .f32) (x4 : Vec F S32x128 .f32)
    (d5 : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d5 ∗ (∃ s, owns (c : Thread nD τ) arg8 fullShare s)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare d5 ∗ owns (c : Thread nD τ) arg8 fullShare (k1_pay2 x0 x1 x2 x3 x4 (k1_pay1 (F := F)))) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%s, %fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero, View.readCov_unit_zero (S := S32x1) _ off2_zero]

set_option maxHeartbeats 4000000 in
/-- A MIDDLE column tile: the running sum `s` ends at this tile's partial sums over `s`; the output's buffer is
    handed back as found. -/
theorem run_middle (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : ¬condReset i) (hc1 : ¬condLast i)
    (x0 : Vec F S32x512 .f32) (x1 : Vec F S32x512 .f32) (x2 : Vec F S32x128 .f32) (x3 : Vec F S32x128 .f32) (x4 : Vec F S32x128 .f32)
    (d5 : Vec F S32x1 .f32) (s : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d5 ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare d5 ∗ owns (c : Thread nD τ) arg8 fullShare (k1_pay2 x0 x1 x2 x3 x4 s)) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero]

set_option maxHeartbeats 4000000 in
/-- LAST column tile: the running sum `s` ends at this tile's partial sums over `s`, and the output's buffer,
    whatever it held, ends at the same value. -/
theorem run_last (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : ¬condReset i) (hc1 : condLast i)
    (x0 : Vec F S32x512 .f32) (x1 : Vec F S32x512 .f32) (x2 : Vec F S32x128 .f32) (x3 : Vec F S32x128 .f32) (x4 : Vec F S32x128 .f32)
    (s : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay2 x0 x1 x2 x3 x4 s) ∗ owns (c : Thread nD τ) arg8 fullShare (k1_pay2 x0 x1 x2 x3 x4 s)) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    sl_unfold_words
    rw [View.read_writes_eq_canon _ _ _ (cover_whole_cons off2_zero _ _ _), View.canon_cons_unit_zero (S := S32x1) off2_zero]
    simp only [View.readAt_eq_ld, Memref.IsWhole.read_unread, View.ld_unit_zero (S := S32x512) off2_zero, View.ld_unit_zero (S := S32x128) off2_zero, View.ld_unit_zero (S := S32x1) off2_zero, View.readCov_unit_zero (S := S32x1) _ off2_zero]
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero]

end Cert.Kernel.Fr

end
-- ==== Proof.BitsHingeRegion.lean ====
/-
  The hinge call's proof data and body obligation. The running sum a row tile's four column tiles build in the
  scratch buffer is named point by point (`accAt`): at a row tile's first column tile it is that tile's partial row
  sums over zero, at each later one the tile's partial sums over what the point before left. The pipeline's invariant
  keeps the scratch at that value between points; the output block is the running sum at a row tile's last column
  tile, where it is written back. The cosine array is read through two windows (the full rows, and the column
  tile), each at half its share. Everything is stated at any float instance, for any contents `V` of the core's
  buffers at the region's entry.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import proofs.«128016_j36679020708303_1_alg».proof.Proof.BitsHingeRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data over
    `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the scratch -/
abbrev ms1_0 (t : Fin cfg1.N) : Memref sig .tc .vmem S32x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1 .f32 := win1_5.stage (cfg1.slots t 5)
abbrev hs1_5 (t : Fin cfg1.N) : (ms1_5 t).IsWhole := hstage1_5 ((cfg1.slots t 5).cast nbuf1_5)
/-- The running sum's buffer. -/
abbrev scM : Memref sig .tc .vmem S32x1 .f32 := Memref.whole cc1_scratch0

/-! ## The running sum, point by point -/

/-- The partial row sums of the column tile at point `t`, added to `s`. -/
def tilePay (c : Dev nD) (t : Fin cfg1.N) (s : Vec F S32x1 .f32) : Vec F S32x1 .f32 :=
  k1_pay2 (iblk1 V c 0 t) (iblk1 V c 1 t) (iblk1 V c 2 t) (iblk1 V c 3 t) (iblk1 V c 4 t) s

/-- What the scratch holds after the body at position `n`. -/
def accAt (c : Dev nD) : (n : ℕ) → n < cfg1.N → Vec F S32x1 .f32
  | 0, hn => tilePay V c ⟨0, hn⟩ (k1_pay1 (F := F))
  | n + 1, hn => tilePay V c ⟨n + 1, hn⟩ (if (n + 1) % 4 = 0 then (k1_pay1 (F := F)) else accAt c n (Nat.lt_of_succ_lt hn))

theorem accAt_first (c : Dev nD) (t : Fin cfg1.N) (h : t.val % 4 = 0) :
    accAt V c t.val t.isLt = tilePay V c t (k1_pay1 (F := F)) := by
  obtain ⟨n, hn⟩ := t
  cases n with
  | zero => rfl
  | succ n =>
    show tilePay V c ⟨n + 1, hn⟩ (if (n + 1) % 4 = 0 then (k1_pay1 (F := F)) else accAt V c n (Nat.lt_of_succ_lt hn)) = _
    rw [if_pos h]

theorem accAt_next (c : Dev nD) (t : Fin cfg1.N) (h : ¬t.val % 4 = 0) :
    accAt V c t.val t.isLt = tilePay V c t (accAt V c (t.val - 1) (Nat.lt_of_le_of_lt (Nat.sub_le _ _) t.isLt)) := by
  obtain ⟨n, hn⟩ := t
  cases n with
  | zero => exact absurd (Nat.zero_mod _) h
  | succ n =>
    show tilePay V c ⟨n + 1, hn⟩ (if (n + 1) % 4 = 0 then (k1_pay1 (F := F)) else accAt V c n (Nat.lt_of_succ_lt hn)) = _
    rw [if_neg h]; rfl

/-! ## The invariant -/

/-- The pipeline's invariant with the scratch as a memref at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM fullShare d)) ∗ (∃ r, prngReg c r)) := by
  unfold Pipeline.ΦA; rw [scopedRest1_eq]; simp only [scM, owns_whole]; try rfl

/-- Before position `n`: at the region's entry every scoped buffer outside the staging at anything; afterwards the
    scratch at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c (n - 1) (by omega))) ∗ (∃ r, prngReg c r)) := by
  cases n with
  | zero => exact absurd rfl hz
  | succ n => rfl

/-! ## The proof data -/

/-- The proof data of the hinge call on core `c`: the arrays as the region finds them; after the body each input's
    buffer at its block and the output's at the running sum; the invariant `PhiS`; nothing owed; the cosine array's
    two windows at the two halves of its share, every other window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ t := PhiS V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the input memrefs hold their blocks; the column-tile coordinate says which of the three
    cases the point is in; the invariant hands the body the scratch at what the point before left (at anything at the
    very first point) and takes it back at this point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcondLast t).mp h))) (noFlush1_5 t (fun h => h1 ((hcondLast t).mp h)))]
    rw [accAt_first V c t h0]; unfold tilePay
    by_cases hz : t.val = 0
    · rw [PhiS_castSucc V c t, PhiS_zero V c _ _ hz, PhiA1_eq]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) ((hcondReset t).mpr h0) (fun h => h1 ((hcondLast t).mp h)) (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) ((hcondReset t).mpr h0) (fun h => h1 ((hcondLast t).mp h)) (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcondLast t).mpr h1)], after1_5]
      rw [accAt_next V c t h0]; unfold tilePay
      rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_last c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) (fun h => h0 ((hcondReset t).mp h)) ((hcondLast t).mpr h1) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcondLast t).mp h))) (noFlush1_5 t (fun h => h1 ((hcondLast t).mp h)))]
      rw [accAt_next V c t h0]; unfold tilePay
      rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_middle c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) (fun h => h0 ((hcondReset t).mp h)) (fun h => h1 ((hcondLast t).mp h)) (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the running sum forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HS⟩, Hg⟩
  isplitr [Hg]
  · isplitl [HA]; · iexact HA
    isplitl [HB]; · iexact HB
    iexists _; iexact HS
  iexact Hg

end Cert.Kernel.Fr

end
-- ==== Proof.BitsTwoRegions.lean ====
/-
  The two kernel regions as segments of @main, and the program's run. Between items, the core's unscoped buffers are
  held at named contents: after the host operations before the regions, then with the cosine array at what the first
  region's write-back leaves, then with the row-sum array at what the second region's write-backs leave, then after
  each later host stretch. The first region's arrays are distinct buffers held whole; the second region reads the
  cosine array through two windows, so at its entry that buffer's full share is split in two halves, one per window,
  and at its exit the halves — both at the contents found, an input being never written — are joined again. From the
  records the program's frame follows (every argument ends as launched), and the same run read at the result buffer
  gives the result's value from the contents the regions leave. Everything is stated at any float instance.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import proofs.«128016_j36679020708303_1_alg».proof.Proof.Gen.Kernel.Regions
import proofs.«128016_j36679020708303_1_alg».proof.Proof.BitsCosRegion
import proofs.«128016_j36679020708303_1_alg».proof.Proof.BitsHingeRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- The core's buffers when the first region is entered. -/
abbrev E1 : (c : Dev nD) → (b : Ref sig .tc) → Buf (Elt F) ((c : Thread nD τ).loc b) := fun c b => Gen.V1 m c b

/-- What the first region leaves in the cosine array. -/
def cosArr (c : Dev nD) : Buf (Elt F) ((c : Thread nD τ).loc main_v28) := (dat0 (E1 m) c).arrAt 1 cfg0.N

/-- The regions' leavings with only the first region's named (what the second region's entry contents are stated over). -/
def outs0 : Gen.Outs (F := F) := fun _ r c => if h : r = main_v28 then h ▸ cosArr m c else m ((c : Thread nD τ).loc r)

theorem outs0_v28 (j : ℕ) (c : Dev nD) : outs0 m j main_v28 c = cosArr m c := by
  unfold outs0; rw [dif_pos rfl]

/-- The core's buffers when the second region is entered. -/
abbrev E2 : (c : Dev nD) → (b : Ref sig .tc) → Buf (Elt F) ((c : Thread nD τ).loc b) := fun c b => Gen.V2 m (outs0 m) c b

/-- What the second region leaves in the row-sum array. -/
def rowArr (c : Dev nD) : Buf (Elt F) ((c : Thread nD τ).loc main_v29) := (dat1 (E2 m) c).arrAt 5 cfg1.N

/-- What the two regions leave. -/
def outs : Gen.Outs (F := F) := fun _ r c =>
  if h : r = main_v28 then h ▸ cosArr m c else if h' : r = main_v29 then h' ▸ rowArr m c else m ((c : Thread nD τ).loc r)

theorem outs_v28 (j : ℕ) (c : Dev nD) : outs m j main_v28 c = cosArr m c := by
  unfold outs; rw [dif_pos rfl]
theorem outs_v29 (j : ℕ) (c : Dev nD) : outs m j main_v29 c = rowArr m c := by
  unfold outs; rw [dif_neg (by decide), dif_pos rfl]

theorem V2_outs (c : Dev nD) : Gen.V2 m (outs m) c = Gen.V2 m (outs0 m) c := by
  unfold Gen.V2
  rw [outs_v28, outs0_v28]

/-! ## The proof data family and what rides beside the buffers -/

def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c

abbrev 𝒱₀ : Variants := Variants.none
abbrev L : GSem nD τ sig → Finset Unit := fun _ => ∅
abbrev lv : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)

/-! ## The first region -/

theorem hF0 (c : Dev nD) (w : Fin cfg0.W) :
    (pdats m 0 c).arrAt w cfg0.N = (fun b => Gen.V2 m (outs m) c b : (b : Ref sig .tc) → Buf (Elt F) ((c : Thread nD τ).loc b)) (Pipeline.arrRef spec0 w) := by
  match w with
  | ⟨0, _⟩ =>
    exact (((dat0 (E1 m) c).arrAt_in 0 rfl _).trans (A_eq0 (E1 m) c 0)).trans (Gen.V2_of m (outs m) c main_arg1 (by decide)).symm
  | ⟨1, _⟩ =>
    show cosArr m c = Function.update (Gen.V1 m c) (Proc.devRef .tc main_v28) (outs m 2 main_v28 c) (Proc.devRef .tc main_v28)
    rw [Function.update_self, outs_v28]

theorem hrest0 (c : Dev nD) : ∀ b, b ∉ Finset.univ.image (Pipeline.arrRef spec0) →
    (fun b => Gen.V2 m (outs m) c b : (b : Ref sig .tc) → Buf (Elt F) ((c : Thread nD τ).loc b)) b = E1 m c b :=
  fun b hb => Gen.V2_of m (outs m) c b (fun hmem => hb (by
    rw [List.mem_singleton] at hmem; subst hmem
    exact Finset.mem_image.mpr ⟨1, Finset.mem_univ _, rfl⟩))

set_option backward.isDefEq.respectTransparency.types false in
/-- The cosine call over the thread state: entered from every unscoped buffer at the contents after the first host
    stretch, left with the cosine array at what its write-back leaves. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The buffers behind the second region's arrays: the cosine array (behind two windows), the similar mask's, the
    margin's, the different mask's, and the row sums'. -/
theorem arrSet1 : Finset.univ.image (Pipeline.arrRef spec1) = ([main_v28, main_v13, main_v27, main_v16, main_v29] : List (Ref sig .tc)).toFinset := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v28) ↦{fullShare} V main_v28) ∗ (((c : Thread nD τ).loc main_v13) ↦{fullShare} V main_v13)
          ∗ (((c : Thread nD τ).loc main_v27) ↦{fullShare} V main_v27) ∗ (((c : Thread nD τ).loc main_v16) ↦{fullShare} V main_v16)
          ∗ (((c : Thread nD τ).loc main_v29) ↦{fullShare} V main_v29)) := by
  unfold Pipeline.arrBufs
  exact bigSep_eq_bigSepL_of_eq _ arrSet1 (by decide) _

theorem share1_0 (V' : (c : Dev nD) → (b : Ref sig .tc) → Buf (Elt F) ((c : Thread nD τ).loc b)) (c : Dev nD) : (dat1 V' c).share 0 = fullShare.left := rfl
theorem share1_1 (V' : (c : Dev nD) → (b : Ref sig .tc) → Buf (Elt F) ((c : Thread nD τ).loc b)) (c : Dev nD) : (dat1 V' c).share 1 = fullShare := rfl
theorem share1_2 (V' : (c : Dev nD) → (b : Ref sig .tc) → Buf (Elt F) ((c : Thread nD τ).loc b)) (c : Dev nD) : (dat1 V' c).share 2 = fullShare.right := rfl
theorem share1_3 (V' : (c : Dev nD) → (b : Ref sig .tc) → Buf (Elt F) ((c : Thread nD τ).loc b)) (c : Dev nD) : (dat1 V' c).share 3 = fullShare := rfl
theorem share1_4 (V' : (c : Dev nD) → (b : Ref sig .tc) → Buf (Elt F) ((c : Thread nD τ).loc b)) (c : Dev nD) : (dat1 V' c).share 4 = fullShare := rfl
theorem share1_5 (V' : (c : Dev nD) → (b : Ref sig .tc) → Buf (Elt F) ((c : Thread nD τ).loc b)) (c : Dev nD) : (dat1 V' c).share 5 = fullShare := rfl

/-- The second region's arrays, window by window: the cosine array's two windows at the two halves of its share. -/
theorem arrays1_eq (V' : (c : Dev nD) → (b : Ref sig .tc) → Buf (Elt F) ((c : Thread nD τ).loc b)) (c : Dev nD)
    (V : (b : Ref sig .tc) → Buf (Elt F) ((c : Thread nD τ).loc b)) :
    ((dat1 V' c).arrays (fun w => V (Pipeline.arrRef spec1 w)) : sProp 𝕄)
      = iprop((((c : Thread nD τ).loc main_v28) ↦{fullShare.left} V main_v28) ∗ (((c : Thread nD τ).loc main_v13) ↦{fullShare} V main_v13)
          ∗ (((c : Thread nD τ).loc main_v28) ↦{fullShare.right} V main_v28) ∗ (((c : Thread nD τ).loc main_v27) ↦{fullShare} V main_v27)
          ∗ (((c : Thread nD τ).loc main_v16) ↦{fullShare} V main_v16) ∗ (((c : Thread nD τ).loc main_v29) ↦{fullShare} V main_v29)) := by
  have h : ((dat1 V' c).arrays (fun w => V (Pipeline.arrRef spec1 w)) : sProp 𝕄)
      = bigSep Finset.univ fun w : Fin cfg1.W => (((c : Thread nD τ).loc (Pipeline.arrRef spec1 w)) ↦{(dat1 V' c).share w} V (Pipeline.arrRef spec1 w) : sProp 𝕄) := by
    unfold Dat.arrays
    exact bigSep_congr fun w _ => by rw [(arr_whole1 w).set_eq_univ]
  rw [h, bigSep_W1, share1_0, share1_1, share1_2, share1_3, share1_4, share1_5]

/-- At the second region's entry the cosine buffer's full share is split between its two windows. -/
theorem arrays1_of_bufs (V' : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V' c).arrays (fun w => V (Pipeline.arrRef spec1 w)) := by
  rw [arrBufs1_eq, arrays1_eq]
  iintro ⟨H28, H13, H27, H16, H29⟩
  have hs : (((c : Thread nD τ).loc main_v28) ↦{fullShare} V main_v28 : sProp 𝕄)
      ⊢ iprop((((c : Thread nD τ).loc main_v28) ↦{fullShare.left} V main_v28) ∗ (((c : Thread nD τ).loc main_v28) ↦{fullShare.right} V main_v28)) :=
    (pointsTo_share (PosShare.mem_left_op_right fullShare)).1
  ihave H := hs $$ H28
  icases H with ⟨Ha, Hb⟩
  isplitl [Ha]; · iexact Ha
  isplitl [H13]; · iexact H13
  isplitl [Hb]; · iexact Hb
  isplitl [H27]; · iexact H27
  isplitl [H16]; · iexact H16
  iexact H29

/-- At its exit the two halves are joined again. -/
theorem bufs_of_arrays1 (V' : (c : Dev nD) → (b : Ref sig .tc) → Buf (Elt F) ((c : Thread nD τ).loc b)) (c : Dev nD)
    (V : (b : Ref sig .tc) → Buf (Elt F) ((c : Thread nD τ).loc b)) :
    ((dat1 V' c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨Ha, H13, Hb, H27, H16, H29⟩
  isplitl [Ha Hb]
  · have hj : iprop((((c : Thread nD τ).loc main_v28) ↦{fullShare.left} V main_v28) ∗ (((c : Thread nD τ).loc main_v28) ↦{fullShare.right} V main_v28))
        ⊢ (((c : Thread nD τ).loc main_v28) ↦{fullShare} V main_v28 : sProp 𝕄) :=
      (pointsTo_share (PosShare.mem_left_op_right fullShare)).2
    iapply hj
    isplitl [Ha]; · iexact Ha
    iexact Hb
  isplitl [H13]; · iexact H13
  isplitl [H27]; · iexact H27
  isplitl [H16]; · iexact H16
  iexact H29

end Cert.Kernel.Fr

end
-- ==== Proof.BitsHingeSegment.lean ====
/-
  The second kernel region as a segment of @main: its entry (the cosine buffer's share split between the two windows
  that read it), its exit (the halves joined, the row sums written), and its record.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import proofs.«128016_j36679020708303_1_alg».proof.Proof.BitsTwoRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- ENTRY of the second region: the unscoped buffers at the contents the first region left are the region's arrays at
    their entry contents — the cosine buffer split between its two windows — and the rest. -/
theorem entry1 (c : Dev nD) :
    (StableHlo.held (c : Thread nD τ) (Pipeline.ucRefs τ sig) (Gen.V2 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  rw [V2_outs, ← Pipeline.unscopedBufs_held c (Gen.V2 m (outs0 m) c),
    Pipeline.unscopedBufs_split₀ (cfgs) 1 winFacts₀1.arr_unscoped c (E2 m c)]
  have hA : ((pdats m 1 c).arrAt · 0) = fun w => E2 m c (Pipeline.arrRef spec1 w) := funext fun w => A_eq1 (E2 m) c w
  rw [hA]
  exact sep_mono (arrays1_of_bufs (E2 m) c (E2 m c)) .rfl

/-- Off the row-sum array, the contents after the second region are those it was entered with. -/
theorem V3_keep (c : Dev nD) (r : Ref sig .tc) (h : r ∉ ([main_v29] : List (Ref sig .tc))) :
    Gen.V3 m (outs m) c r = Gen.V2 m (outs0 m) c r :=
  (Gen.V3_of m (outs m) c r h).trans (congrFun (V2_outs m c) _)

theorem V3_rows (c : Dev nD) : Gen.V3 m (outs m) c main_v29 = rowArr m c := by
  unfold Gen.V3
  rw [Function.update_self, outs_v29]

/-- What the second region's arrays hold at its exit: every input as found, the row sums at what the write-backs leave. -/
theorem hF1 (c : Dev nD) (w : Fin cfg1.W) :
    (pdats m 1 c).arrAt w cfg1.N = (fun b => Gen.V3 m (outs m) c b : (b : Ref sig .tc) → Buf (Elt F) ((c : Thread nD τ).loc b)) (Pipeline.arrRef spec1 w) := by
  match w with
  | ⟨0, _⟩ => exact (((dat1 (E2 m) c).arrAt_in 0 rfl _).trans (A_eq1 (E2 m) c 0)).trans (V3_keep m c main_v28 (by decide)).symm
  | ⟨1, _⟩ => exact (((dat1 (E2 m) c).arrAt_in 1 rfl _).trans (A_eq1 (E2 m) c 1)).trans (V3_keep m c main_v13 (by decide)).symm
  | ⟨2, _⟩ => exact (((dat1 (E2 m) c).arrAt_in 2 rfl _).trans (A_eq1 (E2 m) c 2)).trans (V3_keep m c main_v28 (by decide)).symm
  | ⟨3, _⟩ => exact (((dat1 (E2 m) c).arrAt_in 3 rfl _).trans (A_eq1 (E2 m) c 3)).trans (V3_keep m c main_v27 (by decide)).symm
  | ⟨4, _⟩ => exact (((dat1 (E2 m) c).arrAt_in 4 rfl _).trans (A_eq1 (E2 m) c 4)).trans (V3_keep m c main_v16 (by decide)).symm
  | ⟨5, _⟩ => exact (V3_rows m c).symm

/-- Off the second region's arrays, the rest of the unscoped buffers is the same before and after it. -/
theorem rest1_keep (c : Dev nD) :
    (Pipeline.unscopedRest (Ix := Unit) (Name := ℕ) (U := UR sig nD τ) (Lvl := ℕ) spec1 c (E2 m c) : sProp 𝕄)
      = Pipeline.unscopedRest spec1 c (fun b => Gen.V3 m (outs m) c b) := by
  unfold Pipeline.unscopedRest
  refine bigSep_congr fun b hb => ?_
  have hb' : b ∉ Finset.univ.image (Pipeline.arrRef spec1) := (Finset.mem_sdiff.mp hb).2
  have h29 : b ∉ ([main_v29] : List (Ref sig .tc)) := by
    intro hmem
    rw [List.mem_singleton] at hmem
    apply hb'
    rw [hmem, arrSet1]
    decide
  have e : Gen.V3 m (outs m) c b = Gen.V2 m (outs0 m) c b := V3_keep m c b h29
  beta_reduce
  rw [e]

/-- The second region's arrays at their final contents are its buffers at the contents with the row sums written. -/
theorem arrs1_exit (c : Dev nD) :
    ((pdats m 1 c).arrays ((pdats m 1 c).arrAt · cfg1.N) : sProp 𝕄)
      ⊢ Pipeline.arrBufs (Ix := Unit) (Name := ℕ) (U := UR sig nD τ) (Lvl := ℕ) spec1 c (fun b => Gen.V3 m (outs m) c b) := by
  have hA : ((pdats m 1 c).arrAt · cfg1.N) = fun w => (fun b => Gen.V3 m (outs m) c b : (b : Ref sig .tc) → Buf (Elt F) ((c : Thread nD τ).loc b)) (Pipeline.arrRef spec1 w) :=
    funext fun w => hF1 m c w
  rw [hA]
  exact bufs_of_arrays1 (E2 m) c (fun b => Gen.V3 m (outs m) c b)

set_option maxHeartbeats 1000000 in
/-- EXIT of the second region: its arrays at their final contents — the cosine buffer's two halves joined — and the
    rest are the unscoped buffers at the contents with the row sums written. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (Gen.V3 m (outs m) c) : sProp 𝕄) := by
  rw [← Pipeline.unscopedBufs_held c (Gen.V3 m (outs m) c),
    Pipeline.unscopedBufs_split₀ (cfgs) 1 winFacts₀1.arr_unscoped c (fun b => Gen.V3 m (outs m) c b), rest1_keep]
  exact sep_mono (arrs1_exit m c) .rfl

set_option backward.isDefEq.respectTransparency.types false in
/-- The hinge call over the thread state: entered from the contents the first region left, left with the row-sum
    array at what its write-backs leave. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outs m) c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.Kernel.Fr

end
-- ==== Proof.BitsFrameRun.lean ====
/-
  The program's run from the two regions' records: every weakly fair execution of @main terminates, nothing faults,
  the argument arrays end as launched (the frame), and the result buffer ends at the value the last host stretch
  computes from the contents the regions leave.
-/
import proofs.«128016_j36679020708303_1_alg».proof.Proof.Gen.Kernel.Launch
import proofs.«128016_j36679020708303_1_alg».proof.Proof.Gen.Kernel.Skeleton
import proofs.«128016_j36679020708303_1_alg».proof.Proof.Gen.Kernel.Points
import proofs.«128016_j36679020708303_1_alg».proof.Proof.BitsHingeSegment
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, with nothing beside it. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core beside its buffers makes the generator register at some state and nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, and every final memory holds each
    argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) launch_elt
    (fun _ c => Rr c) (launch_rest ρ) (fun c => by iintro ⟨-, H⟩; iexact H)
    (reg0 m) (fun _ => .rfl) (fun _ => .rfl) (reg1 m) (fun _ => .rfl) (fun _ => .rfl)

end Cert.Kernel.Fr

end
-- ==== Proof.CosRegion.lean ====
/-
  The cosine-similarity call (the program's first kernel region) on one grid point: the whole feature array is
  staged, the body stores ONE value into the whole output block — the normalised Gram matrix of the rows — and the
  block is written back. This module states, for any contents `V` of the core's buffers at the region's entry, what
  the output's staging buffer holds after the body (`cosOut`), the body's triple, the proof data of the pipeline
  and its body obligation. Everything is stated at any float instance.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at the point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-buffer rectangles the body reads and writes through. -/
abbrev rFeat : Rect S512x256 := Rect.unit (s := S512x256) ![0, 0] S512x256.size inb_S512x256_S512x256_0_0
abbrev rCos : Rect S512x512 := Rect.unit (s := S512x512) ![0, 0] S512x512.size inb_S512x512_S512x512_0_0

/-- What the body leaves in the output's staging buffer: its one store, of the normalised Gram matrix of the
    staged features. -/
def cosOut (x0 : Vec F S512x256 .f32) : Vec F S512x512 .f32 :=
  View.canon [⟨rCos, k0_pay1 (View.ld x0 rFeat)⟩]

/-- The one store covers the buffer. -/
theorem cosCover (p0 : Vec F S512x512 .f32) (y : S512x512.Idx) :
    ∃ pc ∈ ([⟨rCos, p0⟩] : List (View.Piece (Elt F) S512x512 .f32)), y ∈ pc.1.set :=
  View.cover_of_tiled [⟨rCos, p0⟩] S512x512.size (by rfl) y

set_option maxHeartbeats 1000000 in
/-- The body on whole staging memrefs, the features' at `x0` and the output's at anything, runs to the continuation
    with the features' as they were and the output's at `cosOut x0`. -/
theorem sound_kernel0 (c : Dev nD) (E : Set ℕ) (i : grid0.Coords) (arg1 : Memref sig .tc .vmem S512x256 .f32) (harg1 : arg1.IsWhole)
    (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (cosOut x0)) -∗ K ⟨⟩))
      ⊢ wp frame (wpE (defs₀ (F := F)) Variants.none c none) E (cc0__cos_kernel i arg1 harg1 arg2 harg2) K := by
  simp only [cc0__cos_kernel_eq_skeleton]; unfold cc0__cos_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cosCover _)

/-- The proof data of the cosine call on core `c`: the arrays as the region finds them; after the body the
    features' buffer at its block and the output's at `cosOut` of it; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => cosOut (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = cosOut (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at the one point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.HingeRuns.lean ====
/-
  The hinge call (the program's second kernel region) visits a 16 × 4 grid: a row tile of 32 rows, and for it four
  column tiles of 128 columns. The body keeps a 32 × 1 running sum in a scratch buffer: it zeroes it at the first
  column tile, adds this tile's partial row sums at every tile, and copies it to the output block at the last one.
  This module states the two branch conditions over the grid, where the output window is idle, and the body's triple
  in each of the three cases the grid meets (first tile; a middle tile; last tile), each with the scratch's and the
  output's contents named through the body's one arithmetic payload. Everything is stated at any float instance.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body zeroes its running sum: the column-tile coordinate is 0. -/
abbrev condReset (i : grid1.Coords) : Prop := (Scalar.cmpi .ne (Scalar.extui (Scalar.cmpi .eq (BitVec.ofNat 32 (i 1).val) 0#32)) 0#32) = 1#1
theorem hcondReset : ∀ t : Fin cfg1.N, condReset (grid1.coords t) ↔ t.val % 4 = 0 :=
  (by decide +kernel : ∀ t : Fin grid1.N, condReset (grid1.coords t) ↔ t.val % 4 = 0)

/-- The body copies its running sum out: the column-tile coordinate is 3. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle and is not written back. -/
theorem idleAt1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
/-- At the last column tile it is live. -/
theorem liveAt1_5 : ∀ t : Fin cfg1.N, condLast (grid1.coords t) → cfg1.idle 5 (grid1.coords t) = false := by decide +kernel

/-! ## Whole-buffer rectangles -/

theorem off2_zero : (![0, 0] : Fin 2 → Nat) = fun _ => 0 := by funext a; fin_cases a <;> rfl

/-- A store through the whole buffer, last, covers it whatever came before. -/
theorem cover_whole_cons {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

/-! ## The body's triple, case by case -/

set_option maxHeartbeats 4000000 in
/-- FIRST column tile: the running sum, whatever it held, ends at this tile's partial sums over zero; the output's
    buffer is handed back as found. -/
theorem run_first (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : condReset i) (hc1 : ¬condLast i)
    (x0 : Vec F S32x512 .f32) (x1 : Vec F S32x512 .f32) (x2 : Vec F S32x128 .f32) (x3 : Vec F S32x128 .f32) (x4 : Vec F S32x128 .f32)
    (d5 : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d5 ∗ (∃ s, owns (c : Thread nD τ) arg8 fullShare s)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare d5 ∗ owns (c : Thread nD τ) arg8 fullShare (k1_pay2 x0 x1 x2 x3 x4 (k1_pay1 (F := F)))) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%s, %fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero, View.readCov_unit_zero (S := S32x1) _ off2_zero]

set_option maxHeartbeats 4000000 in
/-- A MIDDLE column tile: the running sum `s` ends at this tile's partial sums over `s`; the output's buffer is
    handed back as found. -/
theorem run_middle (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : ¬condReset i) (hc1 : ¬condLast i)
    (x0 : Vec F S32x512 .f32) (x1 : Vec F S32x512 .f32) (x2 : Vec F S32x128 .f32) (x3 : Vec F S32x128 .f32) (x4 : Vec F S32x128 .f32)
    (d5 : Vec F S32x1 .f32) (s : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d5 ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare d5 ∗ owns (c : Thread nD τ) arg8 fullShare (k1_pay2 x0 x1 x2 x3 x4 s)) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero]

set_option maxHeartbeats 4000000 in
/-- LAST column tile: the running sum `s` ends at this tile's partial sums over `s`, and the output's buffer,
    whatever it held, ends at the same value. -/
theorem run_last (c : Dev nD) (E : Set ℕ) (i : grid1.Coords)
    (arg2 : Memref sig .tc .vmem S32x512 .f32) (harg2 : arg2.IsWhole) (arg3 : Memref sig .tc .vmem S32x512 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S32x1 .f32) (harg7 : arg7.IsWhole)
    (arg8 : Memref sig .tc .vmem S32x1 .f32) (harg8 : arg8.IsWhole)
    (hc0 : ¬condReset i) (hc1 : condLast i)
    (x0 : Vec F S32x512 .f32) (x1 : Vec F S32x512 .f32) (x2 : Vec F S32x128 .f32) (x3 : Vec F S32x128 .f32) (x4 : Vec F S32x128 .f32)
    (s : Vec F S32x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay2 x0 x1 x2 x3 x4 s) ∗ owns (c : Thread nD τ) arg8 fullShare (k1_pay2 x0 x1 x2 x3 x4 s)) -∗ K ⟨⟩))
      ⊢ wp frame (wpE (defs₀ (F := F)) Variants.none c none) E (cc1__hinge_kernel i arg2 harg2 arg3 harg3 arg4 harg4 arg5 harg5 arg6 harg6 arg7 harg7 arg8 harg8) K := by
  simp only [cc1__hinge_kernel_eq_skeleton]; unfold cc1__hinge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    sl_unfold_words
    rw [View.read_writes_eq_canon _ _ _ (cover_whole_cons off2_zero _ _ _), View.canon_cons_unit_zero (S := S32x1) off2_zero]
    simp only [View.readAt_eq_ld, Memref.IsWhole.read_unread, View.ld_unit_zero (S := S32x512) off2_zero, View.ld_unit_zero (S := S32x128) off2_zero, View.ld_unit_zero (S := S32x1) off2_zero, View.readCov_unit_zero (S := S32x1) _ off2_zero]
  iexists _; isplitr
  swap; · iexact HS
  ipureintro
  sl_unfold_words
  rw [View.read_writes_eq_canon _ _ _ (cover_whole_cons off2_zero _ _ _), View.canon_cons_unit_zero (S := S32x1) off2_zero]
  simp only [View.readAt_eq_ld, Memref.IsWhole.read_unread, View.ld_unit_zero (S := S32x512) off2_zero, View.ld_unit_zero (S := S32x128) off2_zero, View.ld_unit_zero (S := S32x1) off2_zero]

end Cert.KernelIdeal.Fr

end
-- ==== Proof.HingeRegion.lean ====
/-
  The hinge call's proof data and body obligation. The running sum a row tile's four column tiles build in the
  scratch buffer is named point by point (`accAt`): at a row tile's first column tile it is that tile's partial row
  sums over zero, at each later one the tile's partial sums over what the point before left. The pipeline's invariant
  keeps the scratch at that value between points; the output block is the running sum at a row tile's last column
  tile, where it is written back. The cosine array is read through two windows (the full rows, and the column
  tile), each at half its share. Everything is stated at any float instance, for any contents `V` of the core's
  buffers at the region's entry.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import proofs.«128016_j36679020708303_1_alg».proof.Proof.HingeRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data over
    `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point, and the scratch -/
abbrev ms1_0 (t : Fin cfg1.N) : Memref sig .tc .vmem S32x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1 .f32 := win1_5.stage (cfg1.slots t 5)
abbrev hs1_5 (t : Fin cfg1.N) : (ms1_5 t).IsWhole := hstage1_5 ((cfg1.slots t 5).cast nbuf1_5)
/-- The running sum's buffer. -/
abbrev scM : Memref sig .tc .vmem S32x1 .f32 := Memref.whole cc1_scratch0

/-! ## The running sum, point by point -/

/-- The partial row sums of the column tile at point `t`, added to `s`. -/
def tilePay (c : Dev nD) (t : Fin cfg1.N) (s : Vec F S32x1 .f32) : Vec F S32x1 .f32 :=
  k1_pay2 (iblk1 V c 0 t) (iblk1 V c 1 t) (iblk1 V c 2 t) (iblk1 V c 3 t) (iblk1 V c 4 t) s

/-- What the scratch holds after the body at position `n`. -/
def accAt (c : Dev nD) : (n : ℕ) → n < cfg1.N → Vec F S32x1 .f32
  | 0, hn => tilePay V c ⟨0, hn⟩ (k1_pay1 (F := F))
  | n + 1, hn => tilePay V c ⟨n + 1, hn⟩ (if (n + 1) % 4 = 0 then (k1_pay1 (F := F)) else accAt c n (Nat.lt_of_succ_lt hn))

theorem accAt_first (c : Dev nD) (t : Fin cfg1.N) (h : t.val % 4 = 0) :
    accAt V c t.val t.isLt = tilePay V c t (k1_pay1 (F := F)) := by
  obtain ⟨n, hn⟩ := t
  cases n with
  | zero => rfl
  | succ n =>
    show tilePay V c ⟨n + 1, hn⟩ (if (n + 1) % 4 = 0 then (k1_pay1 (F := F)) else accAt V c n (Nat.lt_of_succ_lt hn)) = _
    rw [if_pos h]

theorem accAt_next (c : Dev nD) (t : Fin cfg1.N) (h : ¬t.val % 4 = 0) :
    accAt V c t.val t.isLt = tilePay V c t (accAt V c (t.val - 1) (Nat.lt_of_le_of_lt (Nat.sub_le _ _) t.isLt)) := by
  obtain ⟨n, hn⟩ := t
  cases n with
  | zero => exact absurd (Nat.zero_mod _) h
  | succ n =>
    show tilePay V c ⟨n + 1, hn⟩ (if (n + 1) % 4 = 0 then (k1_pay1 (F := F)) else accAt V c n (Nat.lt_of_succ_lt hn)) = _
    rw [if_neg h]; rfl

/-! ## The invariant -/

/-- The pipeline's invariant with the scratch as a memref at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM fullShare d)) ∗ (∃ r, prngReg c r)) := by
  unfold Pipeline.ΦA; rw [scopedRest1_eq]; simp only [scM, owns_whole]; try rfl

/-- Before position `n`: at the region's entry every scoped buffer outside the staging at anything; afterwards the
    scratch at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) scM fullShare (accAt V c (n - 1) (by omega))) ∗ (∃ r, prngReg c r)) := by
  cases n with
  | zero => exact absurd rfl hz
  | succ n => rfl

/-! ## The proof data -/

/-- The proof data of the hinge call on core `c`: the arrays as the region finds them; after the body each input's
    buffer at its block and the output's at the running sum; the invariant `PhiS`; nothing owed; the cosine array's
    two windows at the two halves of its share, every other window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ t := PhiS V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the input memrefs hold their blocks; the column-tile coordinate says which of the three
    cases the point is in; the invariant hands the body the scratch at what the point before left (at anything at the
    very first point) and takes it back at this point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcondLast t).mp h))) (noFlush1_5 t (fun h => h1 ((hcondLast t).mp h)))]
    rw [accAt_first V c t h0]; unfold tilePay
    by_cases hz : t.val = 0
    · rw [PhiS_castSucc V c t, PhiS_zero V c _ _ hz, PhiA1_eq]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) ((hcondReset t).mpr h0) (fun h => h1 ((hcondLast t).mp h)) (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) ((hcondReset t).mpr h0) (fun h => h1 ((hcondLast t).mp h)) (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcondLast t).mpr h1)], after1_5]
      rw [accAt_next V c t h0]; unfold tilePay
      rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_last c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) (fun h => h0 ((hcondReset t).mp h)) ((hcondLast t).mpr h1) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcondLast t).mp h))) (noFlush1_5 t (fun h => h1 ((hcondLast t).mp h)))]
      rw [accAt_next V c t h0]; unfold tilePay
      rw [PhiS_castSucc V c t, PhiS_pos V c _ _ hz]
      iintro ⟨⟨⟨HA, HB, HS⟩, Hg⟩, Ho, ⟨%d0, H0⟩, ⟨%d1, H1⟩, ⟨%d2, H2⟩, ⟨%d3, H3⟩, ⟨%d4, H4⟩, ⟨%d5, H5⟩⟩
      iapply (run_middle c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) (fun h => h0 ((hcondReset t).mp h)) (fun h => h1 ((hcondLast t).mp h)) (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HA HB HS Hg]
      · isplitr [Hg]
        · isplitl [HA]; · iexact HA
          isplitl [HB]; · iexact HB
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the running sum forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HS⟩, Hg⟩
  isplitr [Hg]
  · isplitl [HA]; · iexact HA
    isplitl [HB]; · iexact HB
    iexists _; iexact HS
  iexact Hg

end Cert.KernelIdeal.Fr

end
-- ==== Proof.TwoRegions.lean ====
/-
  The two kernel regions as segments of @main, and the program's run. Between items, the core's unscoped buffers are
  held at named contents: after the host operations before the regions, then with the cosine array at what the first
  region's write-back leaves, then with the row-sum array at what the second region's write-backs leave, then after
  each later host stretch. The first region's arrays are distinct buffers held whole; the second region reads the
  cosine array through two windows, so at its entry that buffer's full share is split in two halves, one per window,
  and at its exit the halves — both at the contents found, an input being never written — are joined again. From the
  records the program's frame follows (every argument ends as launched), and the same run read at the result buffer
  gives the result's value from the contents the regions leave. Everything is stated at any float instance.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import proofs.«128016_j36679020708303_1_alg».proof.Proof.Gen.KernelIdeal.Regions
import proofs.«128016_j36679020708303_1_alg».proof.Proof.CosRegion
import proofs.«128016_j36679020708303_1_alg».proof.Proof.HingeRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- The core's buffers when the first region is entered. -/
abbrev E1 : (c : Dev nD) → (b : Ref sig .tc) → Buf (Elt F) ((c : Thread nD τ).loc b) := fun c b => Gen.V1 m c b

/-- What the first region leaves in the cosine array. -/
def cosArr (c : Dev nD) : Buf (Elt F) ((c : Thread nD τ).loc main_v28) := (dat0 (E1 m) c).arrAt 1 cfg0.N

/-- The regions' leavings with only the first region's named (what the second region's entry contents are stated over). -/
def outs0 : Gen.Outs (F := F) := fun _ r c => if h : r = main_v28 then h ▸ cosArr m c else m ((c : Thread nD τ).loc r)

theorem outs0_v28 (j : ℕ) (c : Dev nD) : outs0 m j main_v28 c = cosArr m c := by
  unfold outs0; rw [dif_pos rfl]

/-- The core's buffers when the second region is entered. -/
abbrev E2 : (c : Dev nD) → (b : Ref sig .tc) → Buf (Elt F) ((c : Thread nD τ).loc b) := fun c b => Gen.V2 m (outs0 m) c b

/-- What the second region leaves in the row-sum array. -/
def rowArr (c : Dev nD) : Buf (Elt F) ((c : Thread nD τ).loc main_v29) := (dat1 (E2 m) c).arrAt 5 cfg1.N

/-- What the two regions leave. -/
def outs : Gen.Outs (F := F) := fun _ r c =>
  if h : r = main_v28 then h ▸ cosArr m c else if h' : r = main_v29 then h' ▸ rowArr m c else m ((c : Thread nD τ).loc r)

theorem outs_v28 (j : ℕ) (c : Dev nD) : outs m j main_v28 c = cosArr m c := by
  unfold outs; rw [dif_pos rfl]
theorem outs_v29 (j : ℕ) (c : Dev nD) : outs m j main_v29 c = rowArr m c := by
  unfold outs; rw [dif_neg (by decide), dif_pos rfl]

theorem V2_outs (c : Dev nD) : Gen.V2 m (outs m) c = Gen.V2 m (outs0 m) c := by
  unfold Gen.V2
  rw [outs_v28, outs0_v28]

/-! ## The proof data family and what rides beside the buffers -/

def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c

abbrev 𝒱₀ : Variants := Variants.none
abbrev L : GSem nD τ sig → Finset Unit := fun _ => ∅
abbrev lv : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)

/-! ## The first region -/

theorem hF0 (c : Dev nD) (w : Fin cfg0.W) :
    (pdats m 0 c).arrAt w cfg0.N = (fun b => Gen.V2 m (outs m) c b : (b : Ref sig .tc) → Buf (Elt F) ((c : Thread nD τ).loc b)) (Pipeline.arrRef spec0 w) := by
  match w with
  | ⟨0, _⟩ =>
    exact (((dat0 (E1 m) c).arrAt_in 0 rfl _).trans (A_eq0 (E1 m) c 0)).trans (Gen.V2_of m (outs m) c main_arg1 (by decide)).symm
  | ⟨1, _⟩ =>
    show cosArr m c = Function.update (Gen.V1 m c) (Proc.devRef .tc main_v28) (outs m 2 main_v28 c) (Proc.devRef .tc main_v28)
    rw [Function.update_self, outs_v28]

theorem hrest0 (c : Dev nD) : ∀ b, b ∉ Finset.univ.image (Pipeline.arrRef spec0) →
    (fun b => Gen.V2 m (outs m) c b : (b : Ref sig .tc) → Buf (Elt F) ((c : Thread nD τ).loc b)) b = E1 m c b :=
  fun b hb => Gen.V2_of m (outs m) c b (fun hmem => hb (by
    rw [List.mem_singleton] at hmem; subst hmem
    exact Finset.mem_image.mpr ⟨1, Finset.mem_univ _, rfl⟩))

set_option backward.isDefEq.respectTransparency.types false in
/-- The cosine call over the thread state: entered from every unscoped buffer at the contents after the first host
    stretch, left with the cosine array at what its write-back leaves. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The buffers behind the second region's arrays: the cosine array (behind two windows), the similar mask's, the
    margin's, the different mask's, and the row sums'. -/
theorem arrSet1 : Finset.univ.image (Pipeline.arrRef spec1) = ([main_v28, main_v13, main_v27, main_v16, main_v29] : List (Ref sig .tc)).toFinset := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v28) ↦{fullShare} V main_v28) ∗ (((c : Thread nD τ).loc main_v13) ↦{fullShare} V main_v13)
          ∗ (((c : Thread nD τ).loc main_v27) ↦{fullShare} V main_v27) ∗ (((c : Thread nD τ).loc main_v16) ↦{fullShare} V main_v16)
          ∗ (((c : Thread nD τ).loc main_v29) ↦{fullShare} V main_v29)) := by
  unfold Pipeline.arrBufs
  exact bigSep_eq_bigSepL_of_eq _ arrSet1 (by decide) _

theorem share1_0 (V' : (c : Dev nD) → (b : Ref sig .tc) → Buf (Elt F) ((c : Thread nD τ).loc b)) (c : Dev nD) : (dat1 V' c).share 0 = fullShare.left := rfl
theorem share1_1 (V' : (c : Dev nD) → (b : Ref sig .tc) → Buf (Elt F) ((c : Thread nD τ).loc b)) (c : Dev nD) : (dat1 V' c).share 1 = fullShare := rfl
theorem share1_2 (V' : (c : Dev nD) → (b : Ref sig .tc) → Buf (Elt F) ((c : Thread nD τ).loc b)) (c : Dev nD) : (dat1 V' c).share 2 = fullShare.right := rfl
theorem share1_3 (V' : (c : Dev nD) → (b : Ref sig .tc) → Buf (Elt F) ((c : Thread nD τ).loc b)) (c : Dev nD) : (dat1 V' c).share 3 = fullShare := rfl
theorem share1_4 (V' : (c : Dev nD) → (b : Ref sig .tc) → Buf (Elt F) ((c : Thread nD τ).loc b)) (c : Dev nD) : (dat1 V' c).share 4 = fullShare := rfl
theorem share1_5 (V' : (c : Dev nD) → (b : Ref sig .tc) → Buf (Elt F) ((c : Thread nD τ).loc b)) (c : Dev nD) : (dat1 V' c).share 5 = fullShare := rfl

/-- The second region's arrays, window by window: the cosine array's two windows at the two halves of its share. -/
theorem arrays1_eq (V' : (c : Dev nD) → (b : Ref sig .tc) → Buf (Elt F) ((c : Thread nD τ).loc b)) (c : Dev nD)
    (V : (b : Ref sig .tc) → Buf (Elt F) ((c : Thread nD τ).loc b)) :
    ((dat1 V' c).arrays (fun w => V (Pipeline.arrRef spec1 w)) : sProp 𝕄)
      = iprop((((c : Thread nD τ).loc main_v28) ↦{fullShare.left} V main_v28) ∗ (((c : Thread nD τ).loc main_v13) ↦{fullShare} V main_v13)
          ∗ (((c : Thread nD τ).loc main_v28) ↦{fullShare.right} V main_v28) ∗ (((c : Thread nD τ).loc main_v27) ↦{fullShare} V main_v27)
          ∗ (((c : Thread nD τ).loc main_v16) ↦{fullShare} V main_v16) ∗ (((c : Thread nD τ).loc main_v29) ↦{fullShare} V main_v29)) := by
  have h : ((dat1 V' c).arrays (fun w => V (Pipeline.arrRef spec1 w)) : sProp 𝕄)
      = bigSep Finset.univ fun w : Fin cfg1.W => (((c : Thread nD τ).loc (Pipeline.arrRef spec1 w)) ↦{(dat1 V' c).share w} V (Pipeline.arrRef spec1 w) : sProp 𝕄) := by
    unfold Dat.arrays
    exact bigSep_congr fun w _ => by rw [(arr_whole1 w).set_eq_univ]
  rw [h, bigSep_W1, share1_0, share1_1, share1_2, share1_3, share1_4, share1_5]

/-- At the second region's entry the cosine buffer's full share is split between its two windows. -/
theorem arrays1_of_bufs (V' : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V' c).arrays (fun w => V (Pipeline.arrRef spec1 w)) := by
  rw [arrBufs1_eq, arrays1_eq]
  iintro ⟨H28, H13, H27, H16, H29⟩
  have hs : (((c : Thread nD τ).loc main_v28) ↦{fullShare} V main_v28 : sProp 𝕄)
      ⊢ iprop((((c : Thread nD τ).loc main_v28) ↦{fullShare.left} V main_v28) ∗ (((c : Thread nD τ).loc main_v28) ↦{fullShare.right} V main_v28)) :=
    (pointsTo_share (PosShare.mem_left_op_right fullShare)).1
  ihave H := hs $$ H28
  icases H with ⟨Ha, Hb⟩
  isplitl [Ha]; · iexact Ha
  isplitl [H13]; · iexact H13
  isplitl [Hb]; · iexact Hb
  isplitl [H27]; · iexact H27
  isplitl [H16]; · iexact H16
  iexact H29

/-- At its exit the two halves are joined again. -/
theorem bufs_of_arrays1 (V' : (c : Dev nD) → (b : Ref sig .tc) → Buf (Elt F) ((c : Thread nD τ).loc b)) (c : Dev nD)
    (V : (b : Ref sig .tc) → Buf (Elt F) ((c : Thread nD τ).loc b)) :
    ((dat1 V' c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨Ha, H13, Hb, H27, H16, H29⟩
  isplitl [Ha Hb]
  · have hj : iprop((((c : Thread nD τ).loc main_v28) ↦{fullShare.left} V main_v28) ∗ (((c : Thread nD τ).loc main_v28) ↦{fullShare.right} V main_v28))
        ⊢ (((c : Thread nD τ).loc main_v28) ↦{fullShare} V main_v28 : sProp 𝕄) :=
      (pointsTo_share (PosShare.mem_left_op_right fullShare)).2
    iapply hj
    isplitl [Ha]; · iexact Ha
    iexact Hb
  isplitl [H13]; · iexact H13
  isplitl [H27]; · iexact H27
  isplitl [H16]; · iexact H16
  iexact H29

end Cert.KernelIdeal.Fr

end
-- ==== Proof.HingeSegment.lean ====
/-
  The second kernel region as a segment of @main: its entry (the cosine buffer's share split between the two windows
  that read it), its exit (the halves joined, the row sums written), and its record.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import proofs.«128016_j36679020708303_1_alg».proof.Proof.TwoRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- ENTRY of the second region: the unscoped buffers at the contents the first region left are the region's arrays at
    their entry contents — the cosine buffer split between its two windows — and the rest. -/
theorem entry1 (c : Dev nD) :
    (StableHlo.held (c : Thread nD τ) (Pipeline.ucRefs τ sig) (Gen.V2 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  rw [V2_outs, ← Pipeline.unscopedBufs_held c (Gen.V2 m (outs0 m) c),
    Pipeline.unscopedBufs_split₀ (cfgs) 1 winFacts₀1.arr_unscoped c (E2 m c)]
  have hA : ((pdats m 1 c).arrAt · 0) = fun w => E2 m c (Pipeline.arrRef spec1 w) := funext fun w => A_eq1 (E2 m) c w
  rw [hA]
  exact sep_mono (arrays1_of_bufs (E2 m) c (E2 m c)) .rfl

/-- Off the row-sum array, the contents after the second region are those it was entered with. -/
theorem V3_keep (c : Dev nD) (r : Ref sig .tc) (h : r ∉ ([main_v29] : List (Ref sig .tc))) :
    Gen.V3 m (outs m) c r = Gen.V2 m (outs0 m) c r :=
  (Gen.V3_of m (outs m) c r h).trans (congrFun (V2_outs m c) _)

theorem V3_rows (c : Dev nD) : Gen.V3 m (outs m) c main_v29 = rowArr m c := by
  unfold Gen.V3
  rw [Function.update_self, outs_v29]

/-- What the second region's arrays hold at its exit: every input as found, the row sums at what the write-backs leave. -/
theorem hF1 (c : Dev nD) (w : Fin cfg1.W) :
    (pdats m 1 c).arrAt w cfg1.N = (fun b => Gen.V3 m (outs m) c b : (b : Ref sig .tc) → Buf (Elt F) ((c : Thread nD τ).loc b)) (Pipeline.arrRef spec1 w) := by
  match w with
  | ⟨0, _⟩ => exact (((dat1 (E2 m) c).arrAt_in 0 rfl _).trans (A_eq1 (E2 m) c 0)).trans (V3_keep m c main_v28 (by decide)).symm
  | ⟨1, _⟩ => exact (((dat1 (E2 m) c).arrAt_in 1 rfl _).trans (A_eq1 (E2 m) c 1)).trans (V3_keep m c main_v13 (by decide)).symm
  | ⟨2, _⟩ => exact (((dat1 (E2 m) c).arrAt_in 2 rfl _).trans (A_eq1 (E2 m) c 2)).trans (V3_keep m c main_v28 (by decide)).symm
  | ⟨3, _⟩ => exact (((dat1 (E2 m) c).arrAt_in 3 rfl _).trans (A_eq1 (E2 m) c 3)).trans (V3_keep m c main_v27 (by decide)).symm
  | ⟨4, _⟩ => exact (((dat1 (E2 m) c).arrAt_in 4 rfl _).trans (A_eq1 (E2 m) c 4)).trans (V3_keep m c main_v16 (by decide)).symm
  | ⟨5, _⟩ => exact (V3_rows m c).symm

/-- Off the second region's arrays, the rest of the unscoped buffers is the same before and after it. -/
theorem rest1_keep (c : Dev nD) :
    (Pipeline.unscopedRest (Ix := Unit) (Name := ℕ) (U := UR sig nD τ) (Lvl := ℕ) spec1 c (E2 m c) : sProp 𝕄)
      = Pipeline.unscopedRest spec1 c (fun b => Gen.V3 m (outs m) c b) := by
  unfold Pipeline.unscopedRest
  refine bigSep_congr fun b hb => ?_
  have hb' : b ∉ Finset.univ.image (Pipeline.arrRef spec1) := (Finset.mem_sdiff.mp hb).2
  have h29 : b ∉ ([main_v29] : List (Ref sig .tc)) := by
    intro hmem
    rw [List.mem_singleton] at hmem
    apply hb'
    rw [hmem, arrSet1]
    decide
  have e : Gen.V3 m (outs m) c b = Gen.V2 m (outs0 m) c b := V3_keep m c b h29
  beta_reduce
  rw [e]

/-- The second region's arrays at their final contents are its buffers at the contents with the row sums written. -/
theorem arrs1_exit (c : Dev nD) :
    ((pdats m 1 c).arrays ((pdats m 1 c).arrAt · cfg1.N) : sProp 𝕄)
      ⊢ Pipeline.arrBufs (Ix := Unit) (Name := ℕ) (U := UR sig nD τ) (Lvl := ℕ) spec1 c (fun b => Gen.V3 m (outs m) c b) := by
  have hA : ((pdats m 1 c).arrAt · cfg1.N) = fun w => (fun b => Gen.V3 m (outs m) c b : (b : Ref sig .tc) → Buf (Elt F) ((c : Thread nD τ).loc b)) (Pipeline.arrRef spec1 w) :=
    funext fun w => hF1 m c w
  rw [hA]
  exact bufs_of_arrays1 (E2 m) c (fun b => Gen.V3 m (outs m) c b)

set_option maxHeartbeats 1000000 in
/-- EXIT of the second region: its arrays at their final contents — the cosine buffer's two halves joined — and the
    rest are the unscoped buffers at the contents with the row sums written. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (Gen.V3 m (outs m) c) : sProp 𝕄) := by
  rw [← Pipeline.unscopedBufs_held c (Gen.V3 m (outs m) c),
    Pipeline.unscopedBufs_split₀ (cfgs) 1 winFacts₀1.arr_unscoped c (fun b => Gen.V3 m (outs m) c b), rest1_keep]
  exact sep_mono (arrs1_exit m c) .rfl

set_option backward.isDefEq.respectTransparency.types false in
/-- The hinge call over the thread state: entered from the contents the first region left, left with the row-sum
    array at what its write-backs leave. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outs m) c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.KernelIdeal.Fr

end
-- ==== Proof.FrameRun.lean ====
/-
  The program's run from the two regions' records: every weakly fair execution of @main terminates, nothing faults,
  the argument arrays end as launched (the frame), and the result buffer ends at the value the last host stretch
  computes from the contents the regions leave.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import proofs.«128016_j36679020708303_1_alg».proof.Proof.HingeSegment
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, with nothing beside it. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core beside its buffers makes the generator register at some state and nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, and every final memory holds each
    argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) launch_elt
    (fun _ c => Rr c) (launch_rest ρ) (fun c => by iintro ⟨-, H⟩; iexact H)
    (reg0 m) (fun _ => .rfl) (fun _ => .rfl) (reg1 m) (fun _ => .rfl) (fun _ => .rfl)

end Cert.KernelIdeal.Fr

end
-- ==== Proof.ValueRun.lean ====
/-
  The program's run read at the result buffer: the launch of the two regions' records as the conditional frame has
  it, with the result buffer read off the last contents beside the arguments.
-/
import proofs.«128016_j36679020708303_1_alg».proof.Proof.Gen.KernelIdeal.Launch
import proofs.«128016_j36679020708303_1_alg».proof.Proof.Gen.KernelIdeal.Skeleton
import proofs.«128016_j36679020708303_1_alg».proof.Proof.Gen.KernelIdeal.Points
import proofs.«128016_j36679020708303_1_alg».proof.Proof.FrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The same run, read at the result buffer -/

open Idealize.ShloMosaic.Pipeline (Seg HostSeg RegionSeg) in
set_option backward.isDefEq.respectTransparency.types false in
/-- The run of @main given the two regions' records, as the conditional frame has it, with the result buffer read
    off the last contents beside the arguments: the result ends at what the last host stretch computes from what
    the regions leave (`outs`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v45) = Gen.V6 m outs c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V6 m outs c))
    (hch := fun c => ⟨.rfl, hpre0 c, (hpost0 c).trans (hpre1 c), hpost1 c, .rfl, .rfl, sep_mono .rfl (hE2 c)⟩)
    (hinit := ?_) (QY := fun c s => s.mem ((c.tc : Thread nD τ).loc main_v45) = Gen.V6 m outs c main_v45 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (Gen.V6 m outs c) s') $$ [Hh HSI]
    · isplitl [Hh] <;> iassumption
    icases Hr with ⟨%h, HSI⟩
    imodintro
    isplitr
    · ipureintro
      exact ⟨h (Proc.devRef .tc main_v45) (Finset.mem_filter.mpr ⟨StableHlo.devRef_mem_tcRefs main_v45, by decide⟩),
        (h (Proc.devRef .tc main_arg0) (Finset.mem_filter.mpr ⟨StableHlo.devRef_mem_tcRefs main_arg0, by decide⟩)).trans (Gen.V6_main_arg0 m outs c),
        (h (Proc.devRef .tc main_arg1) (Finset.mem_filter.mpr ⟨StableHlo.devRef_mem_tcRefs main_arg1, by decide⟩)).trans (Gen.V6_main_arg1 m outs c)⟩
    · iexact HSI

set_option backward.isDefEq.respectTransparency.types false in
/-- THE RUN WITH ITS VALUE: the result buffer ends at the last contents' entry, the arguments as launched. -/
theorem run_val : θ_run defs (onTc (τ := τ) (main (F := F))) ⟨m, fun _ => 0, ρ⟩ (fun r => ∀ c : Dev nD,
      r.2.mem ((c.tc : Thread nD τ).loc main_v45) = Gen.V6 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) launch_elt
    (fun _ c => Rr c) (launch_rest ρ) (fun c => by iintro ⟨-, H⟩; iexact H)
    (reg0 m) (fun _ => .rfl) (fun _ => .rfl) (reg1 m) (fun _ => .rfl) (fun _ => .rfl)

end Cert.KernelIdeal.Fr

end
-- ==== Proof.HingeSpec.lean ====
/-
  What the two programs compute, as plain functions over the extended reals, in the three places where they are
  arranged differently; each program's value is proved equal to these, index by index.

  * the cosine similarity of feature rows i and j: their dot product over the product of their norms, a norm being
    max (sqrt (sum of squares + eps), eps);
  * the hinge sum of row r: over every column k and every column j, the positive part of
    (margin r k + cos r k) - cos r j, counted when j is a "similar" column of r and k a "different" one;
  * the number of (similar, different) column pairs of row r, whether there is any, and the divisor max(pairs, 1).

  The masks are one-bit words; `bit` reads one as the number 0 or 1.
-/
import Idealize.ShloMosaic.PureOps.Ideal
import Idealize.ShloMosaic.PureOps.Ideal.Laws
import Idealize.ShloMosaic.Lib.ValueIdx

noncomputable section

namespace Cert.HingeSpec

open Idealize.ShloMosaic
open scoped BigOperators

/-- The value of the single-precision literal the programs add under the square root and clamp the norm with. -/
def eps : EReal := Ideal.ofBits .f32 0x322BCC77#32

/-- The sum of squares of feature row i. -/
def sq (x : Fin 512 → Fin 256 → EReal) (i : Fin 512) : EReal := ∑ k : Fin 256, x i k * x i k

/-- The clamped norm of feature row i. -/
def nrm (x : Fin 512 → Fin 256 → EReal) (i : Fin 512) : EReal := max (Ideal.sqrt (sq x i + eps)) eps

/-- The cosine similarity of feature rows i and j. -/
def cosG (x : Fin 512 → Fin 256 → EReal) (i j : Fin 512) : EReal :=
  Ideal.div (∑ k : Fin 256, x i k * x j k) (nrm x i * nrm x j)

/-- A one-bit word as the number 0 or 1. -/
def bit (b : BitVec 1) : EReal := if b = 1#1 then 1 else 0

/-- The hinge sum of row r. -/
def rowG (cs mg : Fin 512 → Fin 512 → EReal) (sB dB : Fin 512 → Fin 512 → BitVec 1) (r : Fin 512) : EReal :=
  ∑ k : Fin 512, ∑ j : Fin 512, max ((mg r k + cs r k) - cs r j) 0 * bit (sB r j) * bit (dB r k)

/-- How many columns of row r a mask marks. -/
def cnt (b : Fin 512 → Fin 512 → BitVec 1) (r : Fin 512) : ℕ := (Finset.univ.filter fun j : Fin 512 => b r j = 1#1).card

/-- The number of (similar, different) column pairs of row r. -/
def pairs (sB dB : Fin 512 → Fin 512 → BitVec 1) (r : Fin 512) : ℕ := cnt sB r * cnt dB r

/-- Whether row r has any pair, as a one-bit word. -/
def validB (sB dB : Fin 512 → Fin 512 → BitVec 1) (r : Fin 512) : BitVec 1 := if 0 < pairs sB dB r then 1#1 else 0#1

/-- The divisor of row r: max(pairs, 1). -/
def den (sB dB : Fin 512 → Fin 512 → BitVec 1) (r : Fin 512) : EReal := ((max (pairs sB dB r) 1 : ℕ) : ℝ)

/-- How many rows have a pair. -/
def nValid (sB dB : Fin 512 → Fin 512 → BitVec 1) : ℕ := (Finset.univ.filter fun r : Fin 512 => 0 < pairs sB dB r).card

/-- The loss: the rows' hinge sums `rs`, each divided by its divisor where the row has a pair (else counted as 0),
    summed, over max(number of rows with a pair, 1). -/
def loss (rs : Fin 512 → EReal) (sB dB : Fin 512 → Fin 512 → BitVec 1) : EReal :=
  Ideal.div (∑ r : Fin 512, if 0 < pairs sB dB r then Ideal.div (rs r) (den sB dB r) else 0)
    (((max (nValid sB dB) 1 : ℕ) : ℝ) : EReal)

end Cert.HingeSpec

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.CosValue.lean ====
/-
  The cosine payload of the first kernel region, read at an index of the extended reals: the dot product of feature
  rows i and j over the product of their clamped norms.
-/
import proofs.«128016_j36679020708303_1_alg».proof.Proof.Gen.KernelIdeal.Skeleton
import proofs.«128016_j36679020708303_1_alg».proof.Proof.HingeSpec
import proofs.«128016_j36679020708303_1_alg».proof.Proof.LibDotPlain
import proofs.«128016_j36679020708303_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx

/-- A matrix [a, b] transposed reads, at (p, q), the matrix at (q, p). -/
theorem transpose_ab_ba_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h _ _ (fun ax => match ax with
    | ⟨0, _⟩ => rfl
    | ⟨1, _⟩ => rfl)

/-- A row [1, b] broadcast along its unit axis reads, at (r, k), the row at (0, k). -/
theorem broadcastTo_1b_ab_apply {α : Type} {a b : ℕ} (x : (⟨2, ![1, b]⟩ : Shape).Idx → α)
    (h : (⟨2, ![1, b]⟩ : Shape).Broadcasts ⟨2, ![a, b]⟩) (r : Fin a) (k : Fin b) :
    broadcastTo ⟨2, ![a, b]⟩ x h (ix2 r k) = x (ix2 (0 : Fin 1) k) :=
  broadcastTo_apply x h _ _ (fun ax => match ax with
    | ⟨0, _⟩ => by
      show 0 = if (1 : ℕ) = 1 then 0 else r.val
      rw [if_pos rfl]
    | ⟨1, _⟩ => by
      have := k.isLt
      show k.val = if b = 1 then 0 else k.val
      split <;> omega)

/-- The square root of a vector at an index. -/
theorem sqrt_apply {s : Shape} {φ : FTy} (a : FVec Ideal s φ) (i : s.Idx) : sqrt a i = Ideal.sqrt (a i) := rfl

/-- The product of a matrix with its own transpose into the zero accumulator, at (i, j): the dot product of rows
    i and j. -/
theorem gram_apply {M K : ℕ} {φ : FTy} (d : DotDims ⟨2, ![M, K]⟩ ⟨2, ![K, M]⟩ ⟨2, ![M, M]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (l : FVec Ideal ⟨2, ![M, K]⟩ φ)
    (h : (⟨2, ![M, K]⟩ : Shape).Transposes [1, 0] ⟨2, ![K, M]⟩) (i j : Fin M) :
    matmul d prec l (transpose ⟨2, ![K, M]⟩ [1, 0] l h) (constant ⟨2, ![M, M]⟩ .f32 0x00000000#32) (ix2 i j)
      = ∑ k : Fin K, l (ix2 i k) * l (ix2 j k) :=
  (Cert.DotPlain.matmul_zero_rows_cols d hlb hrb hlc hrc hln hrn prec l _ i j).trans
    (Finset.sum_congr rfl fun k _ => congrArg (l (ix2 i k) * ·) (transpose_ab_ba_apply l h k j))

/-- The first region's payload at (i, j) is the cosine similarity of feature rows i and j. -/
theorem k0_pay1_apply (x : Vec Ideal S512x256 .f32) (i j : Fin 512) :
    k0_pay1 (F := Ideal) x (ix2 i j) = Cert.HingeSpec.cosG (fun a k => x (ix2 a k)) i j := by
  unfold k0_pay1
  -- the quotient and the product of the two broadcast norms, pointwise
  simp only [divf_apply, mulf_apply]
  -- the numerator is the dot product of rows i and j; the denominator reads the norm column at i and at j
  rw [gram_apply dot_S512x256_S256x512_S512x512_1_0_0_1_n_n rfl rfl rfl rfl rfl rfl none _ _ i j,
    Cert.Keepdims.broadcastTo_a1_ab_apply, broadcastTo_1b_ab_apply, transpose_ab_ba_apply]
  simp only [maximumf_apply, sqrt_apply, addf_apply, broadcast_apply, Cert.Keepdims.shapeCast_a_a1_apply,
    truncf_apply, Ideal.ofBits_def]
  -- the row reduction is the row's sum of squares
  have hs : ∀ r : Fin 512, multiReduction (F := Ideal) FKind.add [1] S512 (mulf x x) (0#32) reduces_S512x256_S512 (.inl rfl) rfl (ix1 r)
      = Cert.HingeSpec.sq (fun a k => x (ix2 a k)) r :=
    fun r => Cert.Keepdims.sum_last2_apply (mulf x x) _ reduces_S512x256_S512 _ _ r
  rw [hs i, hs j]
  rfl

end Cert.KernelIdeal.Val

end
-- ==== Proof.HingeTileValue.lean ====
/-
  The two payloads of the second kernel region, read at an index of the extended reals: the zero the running sum is
  reset to, and the running sum plus this column tile's partial hinge sums of the row.
-/
import proofs.«128016_j36679020708303_1_alg».proof.Proof.Gen.KernelIdeal.Skeleton
import proofs.«128016_j36679020708303_1_alg».proof.Proof.HingeSpec
import proofs.«128016_j36679020708303_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx

/-- A matrix [a, b] viewed as [a, b, 1] reads, at (r, k, u), the matrix at (r, k). -/
theorem shapeCast_ab_ab1_apply {α : Type} {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- [a, b, 1] broadcast along its last axis reads, at (r, k, q), the operand at (r, k, 0). -/
theorem broadcastTo_ab1_abc_apply {α : Type} {a b c : ℕ} (x : (⟨3, ![a, b, 1]⟩ : Shape).Idx → α)
    (h : (⟨3, ![a, b, 1]⟩ : Shape).Broadcasts ⟨3, ![a, b, c]⟩) (r : Fin a) (k : Fin b) (q : Fin c) :
    broadcastTo ⟨3, ![a, b, c]⟩ x h (ix3 r k q) = x (ix3 r k (0 : Fin 1)) :=
  broadcastTo_apply x h _ _ (fun ax => match ax with
    | ⟨0, _⟩ => by
      have := r.isLt
      show r.val = if a = 1 then 0 else r.val
      split <;> omega
    | ⟨1, _⟩ => by
      have := k.isLt
      show k.val = if b = 1 then 0 else k.val
      split <;> omega
    | ⟨2, _⟩ => by
      show 0 = if (1 : ℕ) = 1 then 0 else q.val
      rw [if_pos rfl])

/-- The reset value is zero. -/
theorem k1_pay1_apply (r : Fin 32) (u : Fin 1) : k1_pay1 (F := Ideal) (ix2 r u) = 0 := by
  unfold k1_pay1
  simp only [shapeCast_self]
  exact Ideal.ofBits_zero_f32

/-- The running sum after a column tile: what it was, plus over the tile's 128 columns kk the inner sum over all 512
    columns j of the positive part of (margin + cos)(r, kk) - cos(r, j) weighted by the similar mask at (r, j), that
    inner sum weighted by the different mask at (r, kk). -/
theorem k1_pay2_apply (x0 x1 : Vec Ideal S32x512 .f32) (x2 x3 x4 : Vec Ideal S32x128 .f32) (s : Vec Ideal S32x1 .f32)
    (r : Fin 32) (u : Fin 1) :
    k1_pay2 (F := Ideal) x0 x1 x2 x3 x4 s (ix2 r u)
      = s (ix2 r u) + ∑ kk : Fin 128, (∑ j : Fin 512, max ((x3 (ix2 r kk) + x2 (ix2 r kk)) - x0 (ix2 r j)) 0 * x1 (ix2 r j)) * x4 (ix2 r kk) := by
  unfold k1_pay2
  simp only [shapeCast_self]
  rw [addf_apply, Cert.Keepdims.shapeCast_a_a1_apply]
  refine congrArg (fun t => s (ix2 r u) + t) ?_
  refine (Cert.Keepdims.sum_last2_apply _ _ _ _ _ r).trans (Finset.sum_congr rfl fun kk _ => ?_)
  rw [mulf_apply]
  refine congrArg (fun t => t * x4 (ix2 r kk)) ?_
  refine (Cert.Keepdims.sum_last3_apply _ _ _ _ _ r kk).trans (Finset.sum_congr rfl fun j _ => ?_)
  rw [mulf_apply, maximumf_apply, subf_apply, broadcastTo_ab1_abc_apply, shapeCast_ab_ab1_apply, addf_apply,
    Cert.Keepdims.broadcastTo_a1c_abc_apply, Cert.Keepdims.shapeCast_ac_a1c_apply,
    Cert.Keepdims.broadcastTo_a1c_abc_apply, Cert.Keepdims.shapeCast_ac_a1c_apply, broadcast_apply]
  show max _ (Ideal.ofBits .f32 0x00000000#32) * _ = _
  rw [Ideal.ofBits_zero_f32]

end Cert.KernelIdeal.Val

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.KernelArrays.lean ====
/-
  What the two kernel regions leave in their output arrays, as whole arrays: the first region's one block is the
  cosine payload of the whole feature array; the second region's output row r is the running sum at the last column
  tile of r's row tile, which is the sum over all 512 columns of the tile sums.
-/
import proofs.«128016_j36679020708303_1_alg».proof.Proof.CosRegion
import proofs.«128016_j36679020708303_1_alg».proof.Proof.HingeRegion
import proofs.«128016_j36679020708303_1_alg».proof.Proof.CosValue
import proofs.«128016_j36679020708303_1_alg».proof.Proof.HingeTileValue
import proofs.«128016_j36679020708303_1_alg».proof.Proof.LibBlockSum
import proofs.«128016_j36679020708303_1_alg».proof.Proof.HingeSpec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.ValueIdx Idealize.ShloMosaic.TcCoe Idealize.SL.Sem

variable {F : FTy → Type} [FloatOps F]

/-- At the first region's one point the feature window's block is the whole feature array. -/
theorem iblk0_whole (V : (c : Dev nD) → (b : Ref sig .tc) → Buf (Elt F) ((c : Thread nD τ).loc b)) (c : Dev nD) (t : Fin cfg0.N) :
    iblk0 V c 0 t = V c main_arg1 := by
  have hz' : (fun a => win0_0.index t a * main_arg1.ty.shape.size a) = fun _ => 0 := by
    obtain rfl := fin_N0 t
    exact funext fun a => by fin_cases a <;> decide +kernel
  exact Memref.read_access_unit_zero (Elt F) main_arg1 hz' (fun a => by rw [congrFun hz' a]; simp) (V c main_arg1)

/-- What the first region's one point writes back is the output window's block of the cosine payload of the whole
    feature array. -/
theorem cos_flushed (V : (c : Dev nD) → (b : Ref sig .tc) → Buf (Elt F) ((c : Thread nD τ).loc b)) (c : Dev nD) (t : Fin cfg0.N) :
    (dat0 V c).flushed 1 t = ((cfg0.win 1).blk t).view.read (Elt F) (k0_pay1 (F := F) (V c main_arg1)) := by
  show (cfg0.win 1).cut (grid0.coords t) ((dat0 V c).after 1 t) = _
  rw [after0_1, iblk0_whole]
  unfold cosOut
  rw [View.canon_unit_zero off2_zero, View.ld_unit_zero (S := S512x256) off2_zero]
  have hz' : (fun a => win0_1.index t a * main_v28.ty.shape.size a) = fun _ => 0 := by
    obtain rfl := fin_N0 t
    exact funext fun a => by fin_cases a <;> decide +kernel
  exact (Memref.read_access_unit_zero (Elt F) main_v28 hz' (fun a => by rw [congrFun hz' a]; simp) _).symm

/-- The first region's output array after the region: the cosine payload of the feature array as the region found it.
    (Any float instance.) -/
theorem cosArr_eq (V : (c : Dev nD) → (b : Ref sig .tc) → Buf (Elt F) ((c : Thread nD τ).loc b)) (c : Dev nD) :
    (dat0 V c).arrAt 1 cfg0.N = k0_pay1 (F := F) (V c main_arg1) :=
  (dat0 V c).arrAt_eq_of_cover 1 (k0_pay1 (F := F) (V c main_arg1)) (fun t _ => cos_flushed V c t) fun i =>
    ⟨t0_0, flush0_1 t0_0, by
      show i ∈ ((View.whole main_v28).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * win0_1.size 0 ≤ (i 0 : Nat) ∧ (i 0 : Nat) < win0_1.index t0_0 0 * win0_1.size 0 + win0_1.xsize (grid0.coords t0_0) 0
        rw [show win0_1.index t0_0 0 * win0_1.size 0 = 0 from by decide +kernel, show win0_1.xsize (grid0.coords t0_0) 0 = 512 from by decide +kernel]; omega
      | ⟨1, _⟩ =>
        show win0_1.index t0_0 1 * win0_1.size 1 ≤ (i 1 : Nat) ∧ (i 1 : Nat) < win0_1.index t0_0 1 * win0_1.size 1 + win0_1.xsize (grid0.coords t0_0) 1
        rw [show win0_1.index t0_0 1 * win0_1.size 1 = 0 from by decide +kernel, show win0_1.xsize (grid0.coords t0_0) 1 = 512 from by decide +kernel]; omega⟩

/-- The four arrays the second region reads, and the one it writes, at their literal types (extended reals). -/
abbrev cosA (V : (c : Dev nD) → (b : Ref sig .tc) → Buf (Elt Ideal) ((c : Thread nD τ).loc b)) (c : Dev nD) : Vec Ideal S512x512 .f32 := V c main_v28
abbrev simA (V : (c : Dev nD) → (b : Ref sig .tc) → Buf (Elt Ideal) ((c : Thread nD τ).loc b)) (c : Dev nD) : Vec Ideal S512x512 .f32 := V c main_v13
abbrev margA (V : (c : Dev nD) → (b : Ref sig .tc) → Buf (Elt Ideal) ((c : Thread nD τ).loc b)) (c : Dev nD) : Vec Ideal S512x512 .f32 := V c main_v27
abbrev difA (V : (c : Dev nD) → (b : Ref sig .tc) → Buf (Elt Ideal) ((c : Thread nD τ).loc b)) (c : Dev nD) : Vec Ideal S512x512 .f32 := V c main_v16
abbrev rowA (V : (c : Dev nD) → (b : Ref sig .tc) → Buf (Elt Ideal) ((c : Thread nD τ).loc b)) (c : Dev nD) : Vec Ideal S512x1 .f32 := (dat1 (F := Ideal) V c).arrAt 5 cfg1.N

/-! ## The second region: the input blocks at an index -/

/-- The printed index maps over the grid: at point t the two full-row windows are at row tile t / 4, column block 0; the
    three column-tile windows at row tile t / 4, column tile t % 4; the output window at row tile t / 4, column block 0. -/
theorem idx_facts1 : ∀ t : Fin cfg1.N,
    win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = t.val / 4 ∧ win1_2.index t (1 : Fin 2) = t.val % 4
    ∧ win1_3.index t (0 : Fin 2) = t.val / 4 ∧ win1_3.index t (1 : Fin 2) = t.val % 4
    ∧ win1_4.index t (0 : Fin 2) = t.val / 4 ∧ win1_4.index t (1 : Fin 2) = t.val % 4
    ∧ win1_5.index t (0 : Fin 2) = t.val / 4 ∧ win1_5.index t (1 : Fin 2) = 0 :=
  (by decide +kernel : ∀ t : Fin grid1.N, _)

/-- The cosine array's full-row block at point t, at (a, b): the array at row 32 (t / 4) + a, column b. -/
theorem iblk1_0_apply (V : (c : Dev nD) → (b : Ref sig .tc) → Buf (Elt Ideal) ((c : Thread nD τ).loc b)) (c : Dev nD)
    (t : Fin cfg1.N) (a : Fin 32) (b : Fin 512) (r : Fin 512) (hr : r.val = 32 * (t.val / 4) + a.val) :
    (iblk1 V c 0 t : Vec Ideal S32x512 .f32) (ix2 a b) = cosA V c (ix2 r b) := by
  obtain ⟨e0, e1, -⟩ := idx_facts1 t
  unfold iblk1
  rw [View.read_apply]
  show V c main_v28 _ = V c main_v28 _
  congr 1
  funext d
  apply Fin.ext
  match d with
  | ⟨0, _⟩ => show win1_0.index t (0 : Fin 2) * 32 + 1 * a.val = r.val; rw [e0, hr]; omega
  | ⟨1, _⟩ => show win1_0.index t (1 : Fin 2) * 512 + 1 * b.val = b.val; rw [e1]; omega

/-- The similar mask's full-row block at point t, at (a, b): the array at row 32 (t / 4) + a, column b. -/
theorem iblk1_1_apply (V : (c : Dev nD) → (b : Ref sig .tc) → Buf (Elt Ideal) ((c : Thread nD τ).loc b)) (c : Dev nD)
    (t : Fin cfg1.N) (a : Fin 32) (b : Fin 512) (r : Fin 512) (hr : r.val = 32 * (t.val / 4) + a.val) :
    (iblk1 V c 1 t : Vec Ideal S32x512 .f32) (ix2 a b) = simA V c (ix2 r b) := by
  obtain ⟨-, -, e0, e1, -⟩ := idx_facts1 t
  unfold iblk1
  rw [View.read_apply]
  show V c main_v13 _ = V c main_v13 _
  congr 1
  funext d
  apply Fin.ext
  match d with
  | ⟨0, _⟩ => show win1_1.index t (0 : Fin 2) * 32 + 1 * a.val = r.val; rw [e0, hr]; omega
  | ⟨1, _⟩ => show win1_1.index t (1 : Fin 2) * 512 + 1 * b.val = b.val; rw [e1]; omega

/-- The cosine array's column-tile block at point t, at (a, b): the array at row 32 (t / 4) + a, column 128 (t % 4) + b. -/
theorem iblk1_2_apply (V : (c : Dev nD) → (b : Ref sig .tc) → Buf (Elt Ideal) ((c : Thread nD τ).loc b)) (c : Dev nD)
    (t : Fin cfg1.N) (a : Fin 32) (b : Fin 128) (r k : Fin 512) (hr : r.val = 32 * (t.val / 4) + a.val)
    (hk : k.val = 128 * (t.val % 4) + b.val) :
    (iblk1 V c 2 t : Vec Ideal S32x128 .f32) (ix2 a b) = cosA V c (ix2 r k) := by
  obtain ⟨-, -, -, -, e0, e1, -⟩ := idx_facts1 t
  unfold iblk1
  rw [View.read_apply]
  show V c main_v28 _ = V c main_v28 _
  congr 1
  funext d
  apply Fin.ext
  match d with
  | ⟨0, _⟩ => show win1_2.index t (0 : Fin 2) * 32 + 1 * a.val = r.val; rw [e0, hr]; omega
  | ⟨1, _⟩ => show win1_2.index t (1 : Fin 2) * 128 + 1 * b.val = k.val; rw [e1, hk]; omega

/-- The margin array's column-tile block at point t, at (a, b): the array at row 32 (t / 4) + a, column 128 (t % 4) + b. -/
theorem iblk1_3_apply (V : (c : Dev nD) → (b : Ref sig .tc) → Buf (Elt Ideal) ((c : Thread nD τ).loc b)) (c : Dev nD)
    (t : Fin cfg1.N) (a : Fin 32) (b : Fin 128) (r k : Fin 512) (hr : r.val = 32 * (t.val / 4) + a.val)
    (hk : k.val = 128 * (t.val % 4) + b.val) :
    (iblk1 V c 3 t : Vec Ideal S32x128 .f32) (ix2 a b) = margA V c (ix2 r k) := by
  obtain ⟨-, -, -, -, -, -, e0, e1, -⟩ := idx_facts1 t
  unfold iblk1
  rw [View.read_apply]
  show V c main_v27 _ = V c main_v27 _
  congr 1
  funext d
  apply Fin.ext
  match d with
  | ⟨0, _⟩ => show win1_3.index t (0 : Fin 2) * 32 + 1 * a.val = r.val; rw [e0, hr]; omega
  | ⟨1, _⟩ => show win1_3.index t (1 : Fin 2) * 128 + 1 * b.val = k.val; rw [e1, hk]; omega

/-- The different mask's column-tile block at point t, at (a, b): the array at row 32 (t / 4) + a, column 128 (t % 4) + b. -/
theorem iblk1_4_apply (V : (c : Dev nD) → (b : Ref sig .tc) → Buf (Elt Ideal) ((c : Thread nD τ).loc b)) (c : Dev nD)
    (t : Fin cfg1.N) (a : Fin 32) (b : Fin 128) (r k : Fin 512) (hr : r.val = 32 * (t.val / 4) + a.val)
    (hk : k.val = 128 * (t.val % 4) + b.val) :
    (iblk1 V c 4 t : Vec Ideal S32x128 .f32) (ix2 a b) = difA V c (ix2 r k) := by
  obtain ⟨-, -, -, -, -, -, -, -, e0, e1, -⟩ := idx_facts1 t
  unfold iblk1
  rw [View.read_apply]
  show V c main_v16 _ = V c main_v16 _
  congr 1
  funext d
  apply Fin.ext
  match d with
  | ⟨0, _⟩ => show win1_4.index t (0 : Fin 2) * 32 + 1 * a.val = r.val; rw [e0, hr]; omega
  | ⟨1, _⟩ => show win1_4.index t (1 : Fin 2) * 128 + 1 * b.val = k.val; rw [e1, hk]; omega

/-! ## The running sum at a row tile's last column tile -/

/-- Four column tiles of 128 columns are the 512 columns. -/
theorem h512 : 4 * 128 = 512 := rfl

/-- Column tile kt's partial hinge sum of row r: over the tile's 128 columns k, the inner sum over all 512 columns j,
    weighted by the different mask at (r, k). -/
def tileSum (V : (c : Dev nD) → (b : Ref sig .tc) → Buf (Elt Ideal) ((c : Thread nD τ).loc b)) (c : Dev nD)
    (r : Fin 512) (kt : Fin 4) : EReal :=
  ∑ kk : Fin 128, (∑ j : Fin 512, max ((margA V c (ix2 r (Cert.BlockSum.pos h512 kt kk)) + cosA V c (ix2 r (Cert.BlockSum.pos h512 kt kk)))
      - cosA V c (ix2 r j)) 0 * simA V c (ix2 r j)) * difA V c (ix2 r (Cert.BlockSum.pos h512 kt kk))

/-- One point's step of the running sum at (a, u): what it was plus the point's column tile's partial sum of the row. -/
theorem tilePay_apply (V : (c : Dev nD) → (b : Ref sig .tc) → Buf (Elt Ideal) ((c : Thread nD τ).loc b)) (c : Dev nD)
    (i : Fin 16) (kt : Fin 4) (t : Fin cfg1.N) (ht : t.val = 4 * i.val + kt.val) (s : Vec Ideal S32x1 .f32)
    (a : Fin 32) (u : Fin 1) (r : Fin 512) (hr : r.val = 32 * i.val + a.val) :
    tilePay V c t s (ix2 a u) = s (ix2 a u) + tileSum V c r kt := by
  have hkt := kt.isLt
  have hr' : r.val = 32 * (t.val / 4) + a.val := by rw [hr, ht]; omega
  unfold tilePay tileSum
  rw [k1_pay2_apply]
  refine congrArg (fun x => s (ix2 a u) + x) (Finset.sum_congr rfl fun kk _ => ?_)
  have hk : (Cert.BlockSum.pos h512 kt kk).val = 128 * (t.val % 4) + kk.val := by
    show 128 * kt.val + kk.val = _
    rw [ht]; omega
  rw [iblk1_3_apply V c t a kk r _ hr' hk, iblk1_2_apply V c t a kk r _ hr' hk, iblk1_4_apply V c t a kk r _ hr' hk]
  refine congrArg (fun x => x * difA V c (ix2 r (Cert.BlockSum.pos h512 kt kk))) (Finset.sum_congr rfl fun j _ => ?_)
  rw [iblk1_0_apply V c t a j r hr', iblk1_1_apply V c t a j r hr']

/-- The running sum at a position does not depend on how the position is written. -/
theorem accAt_congr (V : (c : Dev nD) → (b : Ref sig .tc) → Buf (Elt Ideal) ((c : Thread nD τ).loc b)) (c : Dev nD)
    {n n' : ℕ} (h : n = n') (hn : n < cfg1.N) (hn' : n' < cfg1.N) : accAt V c n hn = accAt V c n' hn' := by
  subst h; rfl

/-- The running sum at row tile i's last column tile, at (a, u): the four column tiles' partial sums of row 32 i + a,
    added in order onto zero. -/
theorem accAt_last (V : (c : Dev nD) → (b : Ref sig .tc) → Buf (Elt Ideal) ((c : Thread nD τ).loc b)) (c : Dev nD)
    (i : Fin 16) (a : Fin 32) (u : Fin 1) (r : Fin 512) (hr : r.val = 32 * i.val + a.val) (h3 : 4 * i.val + 3 < cfg1.N) :
    accAt V c (4 * i.val + 3) h3 (ix2 a u)
      = 0 + tileSum V c r 0 + tileSum V c r 1 + tileSum V c r 2 + tileSum V c r 3 := by
  have hi := i.isLt
  have hN : cfg1.N = 64 := N_1
  have h0 : 4 * i.val + 0 < cfg1.N := by omega
  have h1 : 4 * i.val + 1 < cfg1.N := by omega
  have h2 : 4 * i.val + 2 < cfg1.N := by omega
  have e3 : accAt V c (4 * i.val + 3) h3 = tilePay V c ⟨4 * i.val + 3, h3⟩ (accAt V c (4 * i.val + 2) h2) :=
    (accAt_next V c ⟨4 * i.val + 3, h3⟩ (by show ¬(4 * i.val + 3) % 4 = 0; omega)).trans
      (congrArg _ (accAt_congr V c (by show 4 * i.val + 3 - 1 = 4 * i.val + 2; omega) _ _))
  have e2 : accAt V c (4 * i.val + 2) h2 = tilePay V c ⟨4 * i.val + 2, h2⟩ (accAt V c (4 * i.val + 1) h1) :=
    (accAt_next V c ⟨4 * i.val + 2, h2⟩ (by show ¬(4 * i.val + 2) % 4 = 0; omega)).trans
      (congrArg _ (accAt_congr V c (by show 4 * i.val + 2 - 1 = 4 * i.val + 1; omega) _ _))
  have e1 : accAt V c (4 * i.val + 1) h1 = tilePay V c ⟨4 * i.val + 1, h1⟩ (accAt V c (4 * i.val + 0) h0) :=
    (accAt_next V c ⟨4 * i.val + 1, h1⟩ (by show ¬(4 * i.val + 1) % 4 = 0; omega)).trans
      (congrArg _ (accAt_congr V c (by show 4 * i.val + 1 - 1 = 4 * i.val + 0; omega) _ _))
  have e0 : accAt V c (4 * i.val + 0) h0 = tilePay V c ⟨4 * i.val + 0, h0⟩ (k1_pay1 (F := Ideal)) :=
    accAt_first V c ⟨4 * i.val + 0, h0⟩ (by show (4 * i.val + 0) % 4 = 0; omega)
  rw [e3, tilePay_apply V c i 3 _ rfl _ a u r hr, e2, tilePay_apply V c i 2 _ rfl _ a u r hr,
    e1, tilePay_apply V c i 1 _ rfl _ a u r hr, e0, tilePay_apply V c i 0 _ rfl _ a u r hr, k1_pay1_apply]

/-! ## The output array after the region -/

/-- Two points that both write the output block back, to the same block, are one point. -/
theorem idx_inj5 : ∀ t t' : Fin cfg1.N, (cfg1.win 5).flush t = true → (cfg1.win 5).flush t' = true →
    win1_5.index t = win1_5.index t' → t = t' :=
  (by decide +kernel : ∀ t t' : Fin grid1.N, win1_5.flush t = true → win1_5.flush t' = true →
    win1_5.index t = win1_5.index t' → t = t')

/-- So two distinct points that write the output block back write disjoint blocks. -/
theorem disjoint5 : ∀ t t' : Fin cfg1.N, (cfg1.win 5).flush t = true → (cfg1.win 5).flush t' = true → t ≠ t' →
    Disjoint ((cfg1.win 5).blk t).view.set ((cfg1.win 5).blk t').view.set :=
  fun t t' hf hf' hne => (cfg1.win 5).disjoint_blk fun h => hne (idx_inj5 t t' hf hf' h)

/-- The output array after the region, at row 32 (t / 4) + a for a point t that is a row tile's last column tile: the
    running sum at t, at (a, u). -/
theorem rowArr_at (V : (c : Dev nD) → (b : Ref sig .tc) → Buf (Elt Ideal) ((c : Thread nD τ).loc b)) (c : Dev nD)
    (t : Fin cfg1.N) (ht : t.val % 4 = 3) (a : Fin 32) (u : Fin 1) (r : Fin 512) (hr : r.val = 32 * (t.val / 4) + a.val) :
    rowA V c (ix2 r u) = accAt V c t.val t.isLt (ix2 a u) := by
  obtain ⟨-, -, -, -, -, -, -, -, -, -, e0, e1⟩ := idx_facts1 t
  have h := (dat1 V c).arrAt_emb_eq_flushed 5 disjoint5 t ((flush1_5 t).mpr ht) (ix2 a u)
  have he : ((cfg1.win 5).blk t).view.emb (ix2 a u) = ix2 r u := by
    funext d
    apply Fin.ext
    have hu : u.val = 0 := by omega
    match d with
    | ⟨0, _⟩ => show win1_5.index t (0 : Fin 2) * 32 + 1 * a.val = r.val; rw [e0, hr]; omega
    | ⟨1, _⟩ => show win1_5.index t (1 : Fin 2) * 1 + 1 * u.val = u.val; rw [e1]; omega
  rw [he] at h
  refine h.trans ?_
  show (cfg1.win 5).cut (grid1.coords t) ((dat1 V c).after 5 t) (ix2 a u) = _
  rw [after1_5]
  rfl

/-- The second region's output array after the region, at row r (extended reals): over every column k, the inner sum
    over every column j of the positive part of (margin + cos)(r, k) - cos(r, j) weighted by the similar mask at (r, j),
    weighted by the different mask at (r, k) — the arrays being what the region found in the cosine buffer (main_v28),
    the similar mask's (main_v13), the margin's (main_v27) and the different mask's (main_v16). -/
theorem rowArr_apply (V : (c : Dev nD) → (b : Ref sig .tc) → Buf (Elt Ideal) ((c : Thread nD τ).loc b)) (c : Dev nD) (r : Fin 512) (u : Fin 1) :
    rowA V c (ix2 r u)
      = ∑ k : Fin 512, (∑ j : Fin 512, max ((margA V c (ix2 r k) + cosA V c (ix2 r k)) - cosA V c (ix2 r j)) 0 * simA V c (ix2 r j)) * difA V c (ix2 r k) := by
  have hr := r.isLt
  have hN : cfg1.N = 64 := N_1
  have h3 : 4 * (r.val / 32) + 3 < cfg1.N := by omega
  have hra : r.val = 32 * (r.val / 32) + r.val % 32 := (Nat.div_add_mod r.val 32).symm
  rw [rowArr_at V c ⟨4 * (r.val / 32) + 3, h3⟩ (by show (4 * (r.val / 32) + 3) % 4 = 3; omega)
      ⟨r.val % 32, Nat.mod_lt _ (by decide)⟩ u r (by show r.val = 32 * ((4 * (r.val / 32) + 3) / 4) + r.val % 32; omega),
    accAt_last V c ⟨r.val / 32, by omega⟩ ⟨r.val % 32, Nat.mod_lt _ (by decide)⟩ u r hra h3,
    ← Cert.BlockSum.sum_blocks h512, Fin.sum_univ_four, zero_add]
  rfl

end Cert.KernelIdeal.Val

end
-- ==== Proof.HingeMasks.lean ====
/-
  The bookkeeping both programs compute from the integer ids with the same host operations, named once: whether two
  rows' ids agree in every column; the off-diagonal mask; the "similar" mask (agree, off the diagonal) and the
  "different" mask (disagree, off the diagonal); and the margin, 0.15 times the L1 distance of the two rows' ids.
  These terms are never opened: each program's buffers are these terms, and the two sides meet at them.
-/
import Idealize.ShloMosaic.PureOps.Ideal
import Idealize.ShloMosaic.PureOps.Ideal.Laws
import Idealize.ShloMosaic.Lib.ValueIdx

noncomputable section

namespace Cert.HingeMasks

open Idealize.ShloMosaic

abbrev S512x4 : Shape := ⟨2, ![512, 4]⟩
abbrev S512x1x4 : Shape := ⟨3, ![512, 1, 4]⟩
abbrev S1x512x4 : Shape := ⟨3, ![1, 512, 4]⟩
abbrev S512x512x4 : Shape := ⟨3, ![512, 512, 4]⟩
abbrev S512x512 : Shape := ⟨2, ![512, 512]⟩
abbrev S_ : Shape := ⟨0, ![]⟩

/-- Row i's ids beside row j's, column by column. -/
def idsRow (ids : IVec S512x4 32) : IVec S512x512x4 32 :=
  broadcastInDim S512x512x4 ![0, 1, 2] (by decide) (broadcastInDim S512x1x4 ![0, 2] (by decide) ids)
def idsCol (ids : IVec S512x4 32) : IVec S512x512x4 32 :=
  broadcastInDim S512x512x4 ![0, 1, 2] (by decide) (broadcastInDim S1x512x4 ![1, 2] (by decide) ids)

/-- Rows i and j have the same ids in every column. -/
def eqM (ids : IVec S512x4 32) : IVec S512x512 1 :=
  Host.reduce IntOp.andi (cmpi .eq (idsRow ids) (idsCol ids)) (constantI S_ 1 1#1) (by decide : S512x512x4.ReducesTo [2] S512x512) (by decide)

/-- i ≠ j. -/
def offM : IVec S512x512 1 :=
  noti (cmpi .eq (addi (iotaInDim S512x512 32 0) (broadcastInDim S512x512 ![] (by decide) (constantI S_ 32 0#32))) (iotaInDim S512x512 32 1))

/-- The "similar" mask: same ids, off the diagonal. -/
def simM (ids : IVec S512x4 32) : IVec S512x512 1 := andi (eqM ids) offM

/-- The "different" mask: different ids, off the diagonal. -/
def difM (ids : IVec S512x4 32) : IVec S512x512 1 := andi (noti (eqM ids)) offM

/-- The margin: 0.15 (the single-precision literal) times the L1 distance of the two rows' ids. -/
def margM (ids : IVec S512x4 32) : FVec Ideal S512x512 .f32 :=
  mulf (broadcastInDim S512x512 ![] (by decide) (constant (F := Ideal) S_ .f32 0x3E19999A#32))
    (sitofp .f32 (Host.reduce IntOp.addi (absi (subi (idsRow ids) (idsCol ids))) (constantI S_ 32 0#32) (by decide : S512x512x4.ReducesTo [2] S512x512) (by decide)))

end Cert.HingeMasks

end
-- ==== Proof.KernelHost.lean ====
/-
  The kernel program's host operations at the extended reals: the masks and the margin it hands the second region
  are the shared bookkeeping terms of the ids; and its result, from what the second region leaves, is the loss.
-/
import proofs.«128016_j36679020708303_1_alg».proof.Proof.Gen.KernelIdeal.Regions
import proofs.«128016_j36679020708303_1_alg».proof.Proof.HingeSpec
import proofs.«128016_j36679020708303_1_alg».proof.Proof.HingeMasks
import Idealize.ShloMosaic.Lib.StableHlo.Run
import Idealize.ShloMosaic.Lib.ValueIdx
import Idealize.ShloMosaic.Lib.ReduceAll
import Idealize.ShloMosaic.PureOps.Ideal.Laws
import Idealize.ShloMosaic.Lib.IdealHost
import Idealize.ShloMosaic.Lib.ValueIdxRank1
import Idealize.ShloMosaic.Lib.Pipeline.Value
import proofs.«128016_j36679020708303_1_alg».proof.Proof.LibKeepdims

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The ids and the features, as launched. -/
abbrev ids (c : Dev nD) : IVec Cert.HingeMasks.S512x4 32 := m ((c.tc : Thread nD τ).loc main_arg0)
abbrev feats (c : Dev nD) : Vec Ideal S512x256 .f32 := m ((c.tc : Thread nD τ).loc main_arg1)

/-! ## The host's later operations, as functions of what they read -/

/-- The rows' pair counts as the program computes them: the product of the two masks' row sums. -/
def hPairs (S D : Vec Ideal S512x512 .f32) : Vec Ideal S512 .f32 :=
  mulf (Host.reduceAdd S (constant (F := Ideal) S_ .f32 0x00000000#32) reducesTo_S512x512_S512_d1 h_S_)
    (Host.reduceAdd D (constant (F := Ideal) S_ .f32 0x00000000#32) reducesTo_S512x512_S512_d1 h_S_)

/-- Whether a row has a pair: its count is positive. -/
def hValid (S D : Vec Ideal S512x512 .f32) : IVec S512 1 :=
  cmpf .ogt (hPairs S D) (broadcastInDim S512 ![] bcast_S_S512 (constant (F := Ideal) S_ .f32 0x00000000#32))

/-- The rows' hinge sums over max(count, 1). -/
def hQuot (R : Vec Ideal S512x1 .f32) (S D : Vec Ideal S512x512 .f32) : Vec Ideal S512 .f32 :=
  Host.divf (shapeCast S512 R shapeCasts_S512x1_S512)
    (maximumf (hPairs S D) (broadcastInDim S512 ![] bcast_S_S512 (constant (F := Ideal) S_ .f32 0x3F800000#32)))

/-- … kept where the row has a pair, else 0. -/
def hSel (R : Vec Ideal S512x1 .f32) (S D : Vec Ideal S512x512 .f32) : Vec Ideal S512 .f32 :=
  select (hValid S D) (hQuot R S D) (broadcastInDim S512 ![] bcast_S_S512 (constant (F := Ideal) S_ .f32 0x00000000#32))

/-- The result: their sum over max(number of rows with a pair, 1). -/
def hLoss (R : Vec Ideal S512x1 .f32) (S D : Vec Ideal S512x512 .f32) : Vec Ideal S_ .f32 :=
  Host.divf (Host.reduceAdd (hSel R S D) (constant (F := Ideal) S_ .f32 0x00000000#32) reducesTo_S512_S_d0 h_S_)
    (sitofp .f32 (maxsi (Host.reduce IntOp.addi (extui 32 (hValid S D) natLt_1_32) (constantI S_ 32 0#32) reducesTo_S512_S_d0 h_S_)
      (constantI S_ 32 1#32)))

/-! ## Counting with one-bit words -/

/-- A one-bit word read unsigned is 1 when it is the word 1, else 0. -/
theorem toNat_eq_ite (b : BitVec 1) : b.toNat = if b = 1#1 then 1 else 0 := by
  by_cases h : b = 1#1
  · rw [if_pos h, h]; rfl
  · rw [if_neg h, eq_zero_of_ne_one h]; rfl

/-- The sum of one-bit words read unsigned counts the words that are 1. -/
theorem sum_toNat {ι : Type} (s : Finset ι) (b : ι → BitVec 1) :
    ∑ j ∈ s, (b j).toNat = (s.filter fun j => b j = 1#1).card := by
  rw [Finset.card_filter]; exact Finset.sum_congr rfl fun j _ => toNat_eq_ite (b j)

/-- A finite sum of reals, each read as an extended real, is the real sum read as one. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- The sum of one-bit words as 0 / 1 numbers is the count of the words that are 1. -/
theorem sum_uitofp {n : ℕ} (b : Fin n → BitVec 1) :
    ∑ j : Fin n, (((b j).toNat : ℝ) : EReal) = (((Finset.univ.filter fun j => b j = 1#1).card : ℝ) : EReal) := by
  rw [coe_sum, ← Nat.cast_sum, sum_toNat]

/-- The sum of 32-bit words widened from one-bit words is the sum of the one-bit words read unsigned, as a 32-bit word. -/
theorem fold_addi_extui {ι : Type} [DecidableEq ι] (s : Finset ι) (b : ι → BitVec 1) :
    s.fold IntOp.addi 0#32 (fun r => (b r).setWidth 32) = BitVec.ofNat 32 (∑ r ∈ s, (b r).toNat) := by
  induction s using Finset.induction_on with
  | empty => rfl
  | insert a s ha ih =>
    rw [Finset.fold_insert ha, ih, Finset.sum_insert ha, BitVec.ofNat_add]
    congr 1
    by_cases h : b a = 1#1
    · rw [h]; rfl
    · rw [eq_zero_of_ne_one h]; rfl

/-- A count up to 512 as a 32-bit word reads back signed as itself. -/
theorem toInt_ofNat_small (n : ℕ) (h : n ≤ 512) : (BitVec.ofNat 32 n).toInt = (n : ℤ) := by
  rw [BitVec.toInt_eq_toNat_cond, BitVec.toNat_ofNat]
  omega

/-- Its signed maximum with the word 1 is the word of max(n, 1). -/
theorem maxsi_ofNat_one (n : ℕ) (h : n ≤ 512) : IntOp.maxsi (BitVec.ofNat 32 n) 1#32 = BitVec.ofNat 32 (max n 1) := by
  unfold IntOp.maxsi BitVec.slt
  rw [toInt_ofNat_small n h, show (1#32).toInt = 1 from rfl]
  by_cases h1 : 1 < n
  · rw [if_pos (by simpa using (by exact_mod_cast h1 : (1 : ℤ) < n)), max_eq_left (by omega)]
  · rw [if_neg (by simpa using (by exact_mod_cast h1 : ¬ (1 : ℤ) < n)), max_eq_right (by omega)]

/-- The maximum of a natural number and 1, as extended reals. -/
theorem max_natCast_one (p : ℕ) : max (((p : ℝ) : EReal)) 1 = (((max p 1 : ℕ) : ℝ) : EReal) := by
  rw [Nat.cast_max, Nat.cast_one, EReal.coe_strictMono.monotone.map_max, EReal.coe_one]

/-- Whether a natural number, as an extended real, is above 0. -/
theorem cmp_ogt_natCast_zero (p : ℕ) : Ideal.cmp .ogt (((p : ℝ) : EReal)) 0 = if 0 < p then 1#1 else 0#1 := by
  unfold Ideal.cmp
  by_cases h : 0 < p
  · have h' : (0 : EReal) < ((p : ℝ) : EReal) := EReal.coe_pos.2 (Nat.cast_pos.2 h)
    rw [if_pos h]; simp only [h', decide_true]; rfl
  · have h' : ¬ (0 : EReal) < ((p : ℝ) : EReal) := fun h'' => h (Nat.cast_pos.1 (EReal.coe_pos.1 h''))
    rw [if_neg h]; simp only [h', decide_false]; rfl

/-! ## The later operations at an index, at masks given as one-bit words -/

/-- A column [a, 1] viewed as [a] reads, at r, the column at (r, 0). -/
theorem shapeCast_a1_a_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

section Pointwise

variable (sM dM : IVec S512x512 1) (R : Vec Ideal S512x1 .f32)

/-- A mask's row sum is its row count. -/
theorem rowSum_apply (M : IVec S512x512 1) (r : Fin 512) :
    (Host.reduceAdd (uitofp (F := Ideal) .f32 M : Vec Ideal S512x512 .f32) (constant (F := Ideal) S_ .f32 0x00000000#32)
        reducesTo_S512x512_S512_d1 h_S_ : Vec Ideal S512 .f32) (ix1 r)
      = (((Cert.HingeSpec.cnt (fun i j => M (ix2 i j)) r : ℕ) : ℝ) : EReal) := by
  rw [hostReduceAdd_apply, Ideal.hostReduceAdd_single reducesTo_S512x512_S512_d1 (by decide : S512x512.Reduces [1] S512),
    constant_apply, Ideal.ofBits_zero_f32, zero_add]
  refine (Finset.sum_congr rfl fun k _ => congrArg _ (Cert.Keepdims.lift_last2 _ r k)).trans ?_
  exact sum_uitofp fun k => M (ix2 r k)

theorem hPairs_apply (r : Fin 512) :
    hPairs (uitofp (F := Ideal) .f32 sM) (uitofp (F := Ideal) .f32 dM) (ix1 r)
      = (((Cert.HingeSpec.pairs (fun i j => sM (ix2 i j)) (fun i j => dM (ix2 i j)) r : ℕ) : ℝ) : EReal) := by
  unfold hPairs
  rw [mulf_apply, rowSum_apply, rowSum_apply, ← EReal.coe_mul, ← Nat.cast_mul]
  rfl

theorem hValid_apply (r : Fin 512) :
    hValid (uitofp (F := Ideal) .f32 sM) (uitofp (F := Ideal) .f32 dM) (ix1 r)
      = Cert.HingeSpec.validB (fun i j => sM (ix2 i j)) (fun i j => dM (ix2 i j)) r := by
  unfold hValid
  rw [cmpf_apply, Ideal.cmpf_def, hPairs_apply, broadcastInDim_scalar_apply, constant_apply, Ideal.ofBits_zero_f32,
    cmp_ogt_natCast_zero]
  rfl

theorem hQuot_apply (r : Fin 512) :
    hQuot R (uitofp (F := Ideal) .f32 sM) (uitofp (F := Ideal) .f32 dM) (ix1 r)
      = Ideal.div (R (ix2 r (0 : Fin 1))) (Cert.HingeSpec.den (fun i j => sM (ix2 i j)) (fun i j => dM (ix2 i j)) r) := by
  unfold hQuot
  rw [hostDivf_apply, maximumf_apply, hPairs_apply, broadcastInDim_scalar_apply, constant_apply, Ideal.ofBits_one_f32,
    max_natCast_one, shapeCast_a1_a_apply]
  rfl

theorem hSel_apply (r : Fin 512) :
    hSel R (uitofp (F := Ideal) .f32 sM) (uitofp (F := Ideal) .f32 dM) (ix1 r)
      = if 0 < Cert.HingeSpec.pairs (fun i j => sM (ix2 i j)) (fun i j => dM (ix2 i j)) r
        then Ideal.div (R (ix2 r (0 : Fin 1))) (Cert.HingeSpec.den (fun i j => sM (ix2 i j)) (fun i j => dM (ix2 i j)) r) else 0 := by
  unfold hSel
  rw [select_apply, hValid_apply, hQuot_apply, broadcastInDim_scalar_apply, constant_apply, Ideal.ofBits_zero_f32]
  unfold Cert.HingeSpec.validB
  by_cases h : 0 < Cert.HingeSpec.pairs (fun i j => sM (ix2 i j)) (fun i j => dM (ix2 i j)) r
  · simp only [if_pos h, select_one]
  · simp only [if_neg h, select_zero]

/-- There are at most 512 rows with a pair. -/
theorem nValid_le (sB dB : Fin 512 → Fin 512 → BitVec 1) : Cert.HingeSpec.nValid sB dB ≤ 512 := by
  unfold Cert.HingeSpec.nValid
  exact (Finset.card_filter_le _ _).trans (by rw [Finset.card_univ, Fintype.card_fin])

/-- The integer count of the rows with a pair. -/
theorem validCount_apply (j : S_.Idx) :
    Host.reduce IntOp.addi (extui 32 (hValid (uitofp (F := Ideal) .f32 sM) (uitofp (F := Ideal) .f32 dM)) natLt_1_32)
        (constantI S_ 32 0#32) reducesTo_S512_S_d0 h_S_ j
      = BitVec.ofNat 32 (Cert.HingeSpec.nValid (fun i j => sM (ix2 i j)) (fun i j => dM (ix2 i j))) := by
  rw [Host.reduce_eq_fold IntOp.addi _ _ reducesTo_S512_S_d0 h_S_ j,
    Finset.filter_true_of_mem fun i _ => funext fun b => b.elim0]
  refine (fold_addi_extui Finset.univ (hValid (uitofp (F := Ideal) .f32 sM) (uitofp (F := Ideal) .f32 dM))).trans
    (congrArg (BitVec.ofNat 32) ?_)
  rw [← Equiv.sum_comp idxEquiv1.symm]
  refine (Finset.sum_congr rfl fun k _ => by
    rw [show (idxEquiv1.symm k : S512.Idx) = ix1 k from rfl, hValid_apply]).trans ?_
  rw [sum_toNat]
  show (Finset.univ.filter fun r : Fin 512 =>
      (if 0 < Cert.HingeSpec.pairs (fun i j => sM (ix2 i j)) (fun i j => dM (ix2 i j)) r then 1#1 else 0#1) = 1#1).card
    = (Finset.univ.filter fun r : Fin 512 => 0 < Cert.HingeSpec.pairs (fun i j => sM (ix2 i j)) (fun i j => dM (ix2 i j)) r).card
  congr 1
  ext r
  rw [Finset.mem_filter, Finset.mem_filter]
  by_cases h : 0 < Cert.HingeSpec.pairs (fun i j => sM (ix2 i j)) (fun i j => dM (ix2 i j)) r
  · rw [if_pos h]; exact ⟨fun _ => ⟨Finset.mem_univ _, h⟩, fun _ => ⟨Finset.mem_univ _, rfl⟩⟩
  · rw [if_neg h]; exact ⟨fun e => absurd e.2 (by decide), fun h' => absurd h'.2 h⟩

/-- The program's numerator: the kept quotients, summed. -/
theorem hNum_apply (j : S_.Idx) :
    (Host.reduceAdd (hSel R (uitofp (F := Ideal) .f32 sM) (uitofp (F := Ideal) .f32 dM)) (constant (F := Ideal) S_ .f32 0x00000000#32)
        reducesTo_S512_S_d0 h_S_ : Vec Ideal S_ .f32) j
      = ∑ r : Fin 512, if 0 < Cert.HingeSpec.pairs (fun i j => sM (ix2 i j)) (fun i j => dM (ix2 i j)) r
          then Ideal.div (R (ix2 r (0 : Fin 1))) (Cert.HingeSpec.den (fun i j => sM (ix2 i j)) (fun i j => dM (ix2 i j)) r) else 0 := by
  rw [hostReduceAdd_apply, Ideal.hostReduceAdd_total reducesTo_S512_S_d0 (fun b => b.elim0), constant_apply,
    Ideal.ofBits_zero_f32, zero_add, ← Equiv.sum_comp idxEquiv1.symm]
  exact Finset.sum_congr rfl fun r _ => hSel_apply sM dM R r

/-- The program's divisor: max(number of rows with a pair, 1). -/
theorem hDen_apply (j : S_.Idx) :
    (sitofp (F := Ideal) .f32 (maxsi (Host.reduce IntOp.addi (extui 32 (hValid (uitofp (F := Ideal) .f32 sM) (uitofp (F := Ideal) .f32 dM)) natLt_1_32)
        (constantI S_ 32 0#32) reducesTo_S512_S_d0 h_S_) (constantI S_ 32 1#32)) : Vec Ideal S_ .f32) j
      = (((max (Cert.HingeSpec.nValid (fun i j => sM (ix2 i j)) (fun i j => dM (ix2 i j))) 1 : ℕ) : ℝ) : EReal) := by
  rw [sitofp_apply]
  show (((IntOp.maxsi (Host.reduce IntOp.addi (extui 32 (hValid (uitofp (F := Ideal) .f32 sM) (uitofp (F := Ideal) .f32 dM)) natLt_1_32)
      (constantI S_ 32 0#32) reducesTo_S512_S_d0 h_S_ j) 1#32).toInt : ℝ) : EReal) = _
  rw [validCount_apply, maxsi_ofNat_one _ (nValid_le _ _),
    toInt_ofNat_small _ (max_le (nValid_le _ _) (by decide)), Int.cast_natCast]

/-- The program's result is the loss. -/
theorem hLoss_apply (j : S_.Idx) :
    hLoss R (uitofp (F := Ideal) .f32 sM) (uitofp (F := Ideal) .f32 dM) j
      = Cert.HingeSpec.loss (fun r => R (ix2 r (0 : Fin 1))) (fun i j => sM (ix2 i j)) (fun i j => dM (ix2 i j)) := by
  unfold hLoss Cert.HingeSpec.loss
  rw [hostDivf_apply, hNum_apply, hDen_apply]

end Pointwise

/-! ## The buffers the later stretches leave, read back

S, D and R name what the second region leaves in the two masks' arrays and in its output array. -/

/-- What the inlined selection leaves in its result, from any contents. -/
theorem sel_of (W : Valuation τ sig (Elt Ideal)) :
    (StableHlo.after hostOps2_1 W (Proc.devRef .tc main_v39) : Vec Ideal S512 .f32)
      = select (W (Proc.devRef .tc main_v35) : IVec S512 1) (W (Proc.devRef .tc main_v38) : Vec Ideal S512 .f32)
          (broadcastInDim S512 ![] bcast_S_S512 (W (Proc.devRef .tc main_cst_6) : Vec Ideal S_ .f32)) := by
  after_results
  rfl

/-- What the last stretch leaves in the program's result, from any contents. -/
theorem result_of (W : Valuation τ sig (Elt Ideal)) :
    (StableHlo.after hostOps2_2 W (Proc.devRef .tc main_v45) : Vec Ideal S_ .f32)
      = Host.divf (Host.reduceAdd (W (Proc.devRef .tc main_v39) : Vec Ideal S512 .f32) (constant (F := Ideal) S_ .f32 0x00000000#32) reducesTo_S512_S_d0 h_S_)
          (sitofp .f32 (maxsi (Host.reduce IntOp.addi (extui 32 (W (Proc.devRef .tc main_v35) : IVec S512 1) natLt_1_32) (constantI S_ 32 0#32) reducesTo_S512_S_d0 h_S_)
            (constantI S_ 32 1#32))) := by
  after_results

section ReadBack

variable (outs : Gen.Outs (F := Ideal)) (c : Dev nD) (S D : Vec Ideal S512x512 .f32) (R : Vec Ideal S512x1 .f32)
variable (hS : (Gen.V3 (F := Ideal) m outs c main_v13 : Vec Ideal S512x512 .f32) = S)
variable (hD : (Gen.V3 (F := Ideal) m outs c main_v16 : Vec Ideal S512x512 .f32) = D)
variable (hR : (Gen.V3 (F := Ideal) m outs c main_v29 : Vec Ideal S512x1 .f32) = R)

include hS hD in
theorem V4_valid : (Gen.V4 (F := Ideal) m outs c main_v35 : IVec S512 1) = hValid S D := by
  show StableHlo.after hostOps2 (Gen.V3 m outs c) (Proc.devRef .tc main_v35) = _
  after_results
  rw [hS, hD]
  rfl

include hS hD hR in
theorem V4_quot : (Gen.V4 (F := Ideal) m outs c main_v38 : Vec Ideal S512 .f32) = hQuot R S D := by
  show StableHlo.after hostOps2 (Gen.V3 m outs c) (Proc.devRef .tc main_v38) = _
  after_results
  rw [hS, hD, hR]
  rfl

theorem V4_zero : (Gen.V4 (F := Ideal) m outs c main_cst_6 : Vec Ideal S_ .f32) = constant (F := Ideal) S_ .f32 0x00000000#32 := by
  show StableHlo.after hostOps2 (Gen.V3 m outs c) (Proc.devRef .tc main_cst_6) = _
  after_results

include hS hD hR in
theorem V5_sel : (Gen.V5 (F := Ideal) m outs c main_v39 : Vec Ideal S512 .f32) = hSel R S D := by
  have h := sel_of (Gen.V4 m outs c)
  rw [V4_valid m outs c S D hS hD, V4_quot m outs c S D R hS hD hR, V4_zero m outs c] at h
  exact h

include hS hD in
theorem V5_valid : (Gen.V5 (F := Ideal) m outs c main_v35 : IVec S512 1) = hValid S D :=
  (Gen.V5_of m outs c main_v35 (by decide)).trans (V4_valid m outs c S D hS hD)

include hS hD hR in
theorem V6_result : (Gen.V6 (F := Ideal) m outs c main_v45 : Vec Ideal S_ .f32) = hLoss R S D := by
  have h := result_of (Gen.V5 m outs c)
  rw [V5_valid m outs c S D hS hD, V5_sel m outs c S D R hS hD hR] at h
  exact h

end ReadBack

theorem V3_sim (outs : Gen.Outs (F := Ideal)) (c : Dev nD) : Gen.V3 (F := Ideal) m outs c main_v13 = Gen.V1 (F := Ideal) m c main_v13 :=
  (Gen.V3_of m outs c main_v13 (by decide)).trans (Gen.V2_of m outs c main_v13 (by decide))
theorem V3_dif (outs : Gen.Outs (F := Ideal)) (c : Dev nD) : Gen.V3 (F := Ideal) m outs c main_v16 = Gen.V1 (F := Ideal) m c main_v16 :=
  (Gen.V3_of m outs c main_v16 (by decide)).trans (Gen.V2_of m outs c main_v16 (by decide))
theorem V3_out (outs : Gen.Outs (F := Ideal)) (c : Dev nD) : Gen.V3 (F := Ideal) m outs c main_v29 = outs 3 main_v29 c :=
  Function.update_self ..

/-! ## The interface -/

/-- Before the first region the feature array is as launched, -/
theorem V1_feats (c : Dev nD) : (Gen.V1 (F := Ideal) m c main_arg1 : Vec Ideal S512x256 .f32) = feats m c :=
  Gen.V1_of m c main_arg1 (by decide)
/-- the similar mask's array is the similar mask as 0 / 1, -/
theorem V1_sim (c : Dev nD) : (Gen.V1 (F := Ideal) m c main_v13 : Vec Ideal S512x512 .f32) = (uitofp (F := Ideal) .f32 (Cert.HingeMasks.simM (ids m c)) : Vec Ideal S512x512 .f32) := by
  show StableHlo.after hostOps0 (Gen.V0 m c) (Proc.devRef .tc main_v13) = _
  after_results
  rfl
/-- the different mask's likewise, -/
theorem V1_dif (c : Dev nD) : (Gen.V1 (F := Ideal) m c main_v16 : Vec Ideal S512x512 .f32) = (uitofp (F := Ideal) .f32 (Cert.HingeMasks.difM (ids m c)) : Vec Ideal S512x512 .f32) := by
  show StableHlo.after hostOps0 (Gen.V0 m c) (Proc.devRef .tc main_v16) = _
  after_results
  rfl
/-- and the margin's the margin. -/
theorem V1_marg (c : Dev nD) : (Gen.V1 (F := Ideal) m c main_v27 : Vec Ideal S512x512 .f32) = Cert.HingeMasks.margM (ids m c) := by
  show StableHlo.after hostOps0 (Gen.V0 m c) (Proc.devRef .tc main_v27) = _
  after_results
  rfl

/-- The program's result, for ANY contents `outs` the regions leave: the loss of the rows' hinge sums the second region
    left (its output array's column), under the two masks. -/
theorem V6_loss (outs : Gen.Outs (F := Ideal)) (c : Dev nD) :
    (Gen.V6 (F := Ideal) m outs c main_v45 : Vec Ideal S_ .f32)
      = fun _ => Cert.HingeSpec.loss (fun r => (outs 3 main_v29 c : Vec Ideal S512x1 .f32) (ix2 r (0 : Fin 1)))
          (fun i j => Cert.HingeMasks.simM (ids m c) (ix2 i j)) (fun i j => Cert.HingeMasks.difM (ids m c) (ix2 i j)) :=
  (V6_result m outs c _ _ _ ((V3_sim m outs c).trans (V1_sim m c)) ((V3_dif m outs c).trans (V1_dif m c)) (V3_out m outs c)).trans
    (funext fun j => hLoss_apply (Cert.HingeMasks.simM (ids m c)) (Cert.HingeMasks.difM (ids m c)) (outs 3 main_v29 c) j)

end Cert.KernelIdeal.Val

end
-- ==== Proof.KernelValue.lean ====
/-
  The kernel program's result at the extended reals, from the launch contents: the loss of the rows' hinge sums over
  the cosine similarities of the features, the margin and the two masks of the ids.
-/
import proofs.«128016_j36679020708303_1_alg».proof.Proof.TwoRegions
import proofs.«128016_j36679020708303_1_alg».proof.Proof.KernelArrays
import proofs.«128016_j36679020708303_1_alg».proof.Proof.KernelHost
import proofs.«128016_j36679020708303_1_alg».proof.Proof.CosValue
import proofs.«128016_j36679020708303_1_alg».proof.Proof.HingeSpec
import proofs.«128016_j36679020708303_1_alg».proof.Proof.HingeMasks
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.ValueIdx Idealize.ShloMosaic.TcCoe Idealize.SL.Sem

variable (m : (ℓ : Loc nD τ sig) → Buf (Elt Ideal) ℓ)

/-- The features as a matrix of extended reals, and the margin and the two masks of the ids by coordinates. -/
abbrev xK (c : Dev nD) : Fin 512 → Fin 256 → EReal := fun a k => feats m c (ix2 a k)
abbrev mgK (c : Dev nD) : Fin 512 → Fin 512 → EReal := fun i k => Cert.HingeMasks.margM (ids m c) (ix2 i k)
abbrev sBK (c : Dev nD) : Fin 512 → Fin 512 → BitVec 1 := fun i j => Cert.HingeMasks.simM (ids m c) (ix2 i j)
abbrev dBK (c : Dev nD) : Fin 512 → Fin 512 → BitVec 1 := fun i j => Cert.HingeMasks.difM (ids m c) (ix2 i j)

/-- A one-bit word converted unsigned is the number 0 or 1 it reads as. -/
theorem uitofp_bit (b : BitVec 1) : (FloatOps.uitofp (F := Ideal) .f32 b : EReal) = Cert.HingeSpec.bit b := by
  unfold Cert.HingeSpec.bit
  by_cases h : b = 1#1
  · subst h
    rw [if_pos rfl]
    show (((1 : ℕ) : ℝ) : EReal) = 1
    rw [Nat.cast_one, EReal.coe_one]
  · rw [if_neg h, eq_zero_of_ne_one h]
    show (((0 : ℕ) : ℝ) : EReal) = 0
    rw [Nat.cast_zero, EReal.coe_zero]

/-- A sum times a 0 / 1 factor is the sum of the terms times it. -/
theorem sum_mul_bit {n : ℕ} (f : Fin n → EReal) (b : BitVec 1) :
    (∑ j : Fin n, f j) * Cert.HingeSpec.bit b = ∑ j : Fin n, f j * Cert.HingeSpec.bit b := by
  unfold Cert.HingeSpec.bit
  by_cases h : b = 1#1
  · simp only [if_pos h, mul_one]
  · simp only [if_neg h, mul_zero, Finset.sum_const_zero]

/-- The cosine array the second region finds is the cosine similarity of the features. -/
theorem cosA_apply (c : Dev nD) (i j : Fin 512) : cosA (Fr.E2 m) c (ix2 i j) = Cert.HingeSpec.cosG (xK m c) i j := by
  have h : cosA (Fr.E2 m) c = k0_pay1 (F := Ideal) (feats m c) := by
    show Function.update (Gen.V1 m c) (Proc.devRef .tc main_v28) (Fr.outs0 m 2 main_v28 c) (Proc.devRef .tc main_v28) = _
    rw [Function.update_self, Fr.outs0_v28]
    unfold Fr.cosArr
    rw [cosArr_eq (Fr.E1 m) c]
    exact congrArg (k0_pay1 (F := Ideal)) (V1_feats m c)
  rw [h]
  exact k0_pay1_apply (feats m c) i j

/-- The similar mask's array it finds is the similar mask as 0 / 1, -/
theorem simA_apply (c : Dev nD) (i j : Fin 512) : simA (Fr.E2 m) c (ix2 i j) = Cert.HingeSpec.bit (sBK m c i j) := by
  have h : simA (Fr.E2 m) c = (uitofp (F := Ideal) .f32 (Cert.HingeMasks.simM (ids m c)) : Vec Ideal S512x512 .f32) :=
    (Gen.V2_of m (Fr.outs0 m) c main_v13 (by decide)).trans (V1_sim m c)
  rw [h]
  exact uitofp_bit _

/-- the different mask's likewise, -/
theorem difA_apply (c : Dev nD) (i j : Fin 512) : difA (Fr.E2 m) c (ix2 i j) = Cert.HingeSpec.bit (dBK m c i j) := by
  have h : difA (Fr.E2 m) c = (uitofp (F := Ideal) .f32 (Cert.HingeMasks.difM (ids m c)) : Vec Ideal S512x512 .f32) :=
    (Gen.V2_of m (Fr.outs0 m) c main_v16 (by decide)).trans (V1_dif m c)
  rw [h]
  exact uitofp_bit _

/-- and the margin's the margin. -/
theorem margA_apply (c : Dev nD) (i j : Fin 512) : margA (Fr.E2 m) c (ix2 i j) = mgK m c i j := by
  have h : margA (Fr.E2 m) c = Cert.HingeMasks.margM (ids m c) :=
    (Gen.V2_of m (Fr.outs0 m) c main_v27 (by decide)).trans (V1_marg m c)
  rw [h]

/-- The row sums the second region leaves are the rows' hinge sums. -/
theorem rowA_apply (c : Dev nD) (r : Fin 512) :
    (rowA (Fr.E2 m) c (ix2 r (0 : Fin 1)) : EReal)
      = Cert.HingeSpec.rowG (Cert.HingeSpec.cosG (xK m c)) (mgK m c) (sBK m c) (dBK m c) r := by
  rw [rowArr_apply (Fr.E2 m) c r 0]
  unfold Cert.HingeSpec.rowG
  refine Finset.sum_congr rfl fun k _ => ?_
  rw [difA_apply, margA_apply, cosA_apply, sum_mul_bit]
  refine Finset.sum_congr rfl fun j _ => ?_
  rw [cosA_apply, simA_apply]

/-- The kernel program's result buffer after the run (as the last host stretch leaves it, from what the two regions
    leave): the loss of the hinge sums. -/
theorem kernel_value (c : Dev nD) :
    (Gen.V6 (F := Ideal) m (Fr.outs m) c main_v45 : Vec Ideal S_ .f32)
      = fun _ => Cert.HingeSpec.loss (Cert.HingeSpec.rowG (Cert.HingeSpec.cosG (xK m c)) (mgK m c) (sBK m c) (dBK m c)) (sBK m c) (dBK m c) := by
  refine (V6_loss m (Fr.outs m) c).trans ?_
  have h29 : (Fr.outs m 3 main_v29 c : Vec Ideal S512x1 .f32) = rowA (Fr.E2 m) c := Fr.outs_v29 m 3 c
  rw [h29]
  exact congrArg (fun f : Fin 512 → EReal => fun _ => Cert.HingeSpec.loss f (sBK m c) (dBK m c)) (funext fun r => rowA_apply m c r)

end Cert.KernelIdeal.Val

end
-- ==== Proof.RefCos.lean ====
/-
  The reference's cosine-similarity array, read at an index of the extended reals.
-/
import proofs.«128016_j36679020708303_1_alg».proof.Proof.RefRead
import proofs.«128016_j36679020708303_1_alg».proof.Proof.HingeSpec
import proofs.«128016_j36679020708303_1_alg».proof.Proof.HingeMasks
import proofs.«128016_j36679020708303_1_alg».proof.Proof.LibDotPlain
import proofs.«128016_j36679020708303_1_alg».proof.Proof.LibKeepdims
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.ReadP Idealize.ShloMosaic Idealize.ShloMosaic.ValueIdx

/-- An index of the feature array built by the row sum's index map is the pair of its coordinates. -/
theorem idx_v1_ix (i : Fin 512) (k : Fin 256) : idx_main_v1 (ix1 i) k = ix2 i k :=
  funext fun a => Fin.ext (by match a with | ⟨0, _⟩ => rfl | ⟨1, _⟩ => rfl)

/-- The row sum of squares at i is the sum of squares of feature row i. -/
theorem ref_sq (x1 : (⟨S512x256, .f32⟩ : BufTy).Contents (Elt Ideal)) (i : Fin 512) :
    val_main_v1 (F := Ideal) x1 (ix1 i) = Cert.HingeSpec.sq (fun a k => x1 (ix2 a k)) i := by
  rw [val_main_v1_apply, val_main_cst_apply]
  simp only [Ideal.ofBits_def, Ideal.ofBits_zero_f32, zero_add, Cert.HingeSpec.sq]
  refine Finset.sum_congr rfl fun k _ => ?_
  rw [val_main_v0_apply, Ideal.mulf_def, idx_v1_ix]

/-- The clamped norm array at i is the clamped norm of feature row i. -/
theorem ref_nrm (x1 : (⟨S512x256, .f32⟩ : BufTy).Contents (Elt Ideal)) (i : Fin 512) :
    val_main_v6 (F := Ideal) x1 (ix1 i) = Cert.HingeSpec.nrm (fun a k => x1 (ix2 a k)) i := by
  rw [val_main_v6_apply, val_main_v4_apply, val_main_v3_apply, val_main_v2_apply, val_main_v5_apply,
    val_main_cst_0_apply, val_main_cst_1_apply, ref_sq]
  simp only [Ideal.maximumf_def, Ideal.hostUnary_sqrt_def, Ideal.addf_def, Ideal.ofBits_def,
    Cert.HingeSpec.nrm, Cert.HingeSpec.eps]

/-- The column-broadcast norm reads the norm array at the row coordinate. -/
theorem idx_v9_v11_ix (i j : Fin 512) : idx_main_v9 (idx_main_v11 (ix2 i j)) = ix1 i :=
  funext fun a => Fin.ext (by match a with | ⟨0, _⟩ => rfl)

/-- The row-broadcast norm reads the norm array at the column coordinate. -/
theorem idx_v10_v12_ix (i j : Fin 512) : idx_main_v10 (idx_main_v12 (ix2 i j)) = ix1 j :=
  funext fun a => Fin.ext (by match a with | ⟨0, _⟩ => rfl)

/-- The product's left operand is read at (i, k). -/
theorem lidx_v8_ix (i j : Fin 512) (k : Fin 256) : lidx_main_v8 (ix2 i j) k = ix2 i k :=
  funext fun a => Fin.ext (by match a with | ⟨0, _⟩ => rfl | ⟨1, _⟩ => rfl)

/-- The product's right operand, the transpose, is read at (j, k) of the feature array. -/
theorem idx_v7_ridx_v8_ix (i j : Fin 512) (k : Fin 256) : idx_main_v7 (ridx_main_v8 (ix2 i j) k) = ix2 j k :=
  funext fun a => Fin.ext (by match a with | ⟨0, _⟩ => rfl | ⟨1, _⟩ => rfl)

/-- The reference's cosine array at (i, j) is the cosine similarity of feature rows i and j. -/
theorem ref_cos (x1 : (⟨S512x256, .f32⟩ : BufTy).Contents (Elt Ideal)) (i j : Fin 512) :
    val_main_v14 (F := Ideal) x1 (ix2 i j) = Cert.HingeSpec.cosG (fun a k => x1 (ix2 a k)) i j := by
  rw [val_main_v14_apply, val_main_v13_apply, val_main_v11_apply, val_main_v12_apply, val_main_v9_apply,
    val_main_v10_apply, idx_v9_v11_ix, idx_v10_v12_ix, ref_nrm, ref_nrm, val_main_v8_apply]
  simp only [Ideal.hostDivf_def, Ideal.mulf_def, Cert.HingeSpec.cosG]
  refine congrArg (Ideal.div · _) (Finset.sum_congr rfl fun k _ => ?_)
  rw [val_main_v7_apply, lidx_v8_ix, idx_v7_ridx_v8_ix]

end Cert.ReferenceIdeal.RefVal

end
-- ==== Proof.RefRows.lean ====
/-
  The reference's masks and margin are the shared bookkeeping terms; and its row sums, a sum over two axes of a
  512 × 512 × 512 array, are the hinge sums of the rows.
-/
import proofs.«128016_j36679020708303_1_alg».proof.Proof.RefRead
import proofs.«128016_j36679020708303_1_alg».proof.Proof.HingeSpec
import proofs.«128016_j36679020708303_1_alg».proof.Proof.HingeMasks
import proofs.«128016_j36679020708303_1_alg».proof.Proof.LibDotPlain
import proofs.«128016_j36679020708303_1_alg».proof.Proof.LibKeepdims
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.ReadP Idealize.ShloMosaic Idealize.ShloMosaic.ValueIdx

/-- A rank-3 index set is the product of its three coordinate ranges. -/
def idxEquiv3 {a b c : ℕ} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {a b c : ℕ} (f : (⟨3, ![a, b, c]⟩ : Shape).Idx → M) :
    ∑ i, f i = ∑ p : Fin a, ∑ j : Fin b, ∑ k : Fin c, f (ix3 p j k) := by
  rw [← Equiv.sum_comp (idxEquiv3 (a := a) (b := b) (c := c)).symm f, Fintype.sum_prod_type]
  refine Finset.sum_congr rfl fun p _ => ?_
  rw [Fintype.sum_prod_type]
  rfl

/-- Dropping the last two of three axes sends an index to (r) exactly when its first coordinate is r. -/
theorem drop_last23_eq_iff {a b c : ℕ} (h' : (⟨3, ![a, b, c]⟩ : Shape).ReducesTo [1, 2] ⟨1, ![a]⟩)
    (i : (⟨3, ![a, b, c]⟩ : Shape).Idx) (r : Fin a) : h'.drop i = ix1 r ↔ (i 0).val = r.val := by
  constructor
  · intro h
    exact congrArg (fun f : (⟨1, ![a]⟩ : Shape).Idx => (f 0).val) h
  · intro h
    funext d
    match d with
    | ⟨0, _⟩ => exact Fin.ext h

/-- The host's sum over the last two of three axes, at (r): the initial value plus the sum over j and k of the
    operand at (r, j, k). -/
theorem host_sum_last23_apply {a b c : ℕ} (x : (⟨3, ![a, b, c]⟩ : Shape).Idx → EReal) (init : EReal)
    (h' : (⟨3, ![a, b, c]⟩ : Shape).ReducesTo [1, 2] ⟨1, ![a]⟩) (r : Fin a) :
    Ideal.hostReduceAdd h' x init (ix1 r) = init + ∑ j : Fin b, ∑ k : Fin c, x (ix3 r j k) := by
  unfold Ideal.hostReduceAdd
  refine congrArg (init + ·) ?_
  rw [Finset.sum_filter, sum_idx3]
  rw [Finset.sum_eq_single r]
  · refine Finset.sum_congr rfl fun j _ => Finset.sum_congr rfl fun k _ => ?_
    rw [if_pos ((drop_last23_eq_iff h' _ r).2 rfl)]
  · intro p _ hp
    refine Finset.sum_eq_zero fun j _ => Finset.sum_eq_zero fun k _ => ?_
    rw [if_neg fun h => hp (Fin.ext ((drop_last23_eq_iff h' _ r).1 h))]
  · intro h; exact absurd (Finset.mem_univ r) h

/-- The conjunction of two one-bit words, read unsigned as a number, is the product of the two bits. -/
theorem and_bits (s d : BitVec 1) :
    (((IntOp.andi s d).toNat : ℝ) : EReal) = Cert.HingeSpec.bit s * Cert.HingeSpec.bit d := by
  rcases BitVec.eq_zero_or_eq_one s with rfl | rfl <;> rcases BitVec.eq_zero_or_eq_one d with rfl | rfl <;>
    simp [Cert.HingeSpec.bit, IntOp.andi]

/-- (a - b) + c = (a + c) - b on the extended reals. -/
theorem sub_add_eq_add_sub' (a b c : EReal) : (a - b) + c = (a + c) - b := by
  rw [sub_eq_add_neg, sub_eq_add_neg, add_right_comm]

/-- The reference's [512, 512, 512] array at (r, j, k): the positive part of (margin r k - cos r j) + cos r k, times the
    conjunction of the similar bit at (r, j) and the different bit at (r, k) read as a number. -/
theorem v56_at (x0 : (⟨S512x4, .i32⟩ : BufTy).Contents (Elt Ideal)) (x1 : (⟨S512x256, .f32⟩ : BufTy).Contents (Elt Ideal))
    (r j k : Fin 512) :
    val_main_v56 (F := Ideal) x0 x1 (ix3 r j k)
      = max 0 ((val_main_v30 (F := Ideal) x0 (ix2 r k) - val_main_v14 (F := Ideal) x1 (ix2 r j))
            + val_main_v14 (F := Ideal) x1 (ix2 r k))
        * (((IntOp.andi (val_main_v37 (F := Ideal) x0 (ix2 r j)) (val_main_v39 (F := Ideal) x0 (ix2 r k))).toNat : ℝ) : EReal) := by
  have e42 : idx_main_v40 (idx_main_v42 (ix3 r j k)) = ix2 r k :=
    funext fun a => Fin.ext (by match a with | ⟨0, _⟩ => rfl | ⟨1, _⟩ => rfl)
  have e43 : idx_main_v41 (idx_main_v43 (ix3 r j k)) = ix2 r j :=
    funext fun a => Fin.ext (by match a with | ⟨0, _⟩ => rfl | ⟨1, _⟩ => rfl)
  have e46 : idx_main_v45 (idx_main_v46 (ix3 r j k)) = ix2 r k :=
    funext fun a => Fin.ext (by match a with | ⟨0, _⟩ => rfl | ⟨1, _⟩ => rfl)
  have e52 : idx_main_v50 (idx_main_v52 (ix3 r j k)) = ix2 r j :=
    funext fun a => Fin.ext (by match a with | ⟨0, _⟩ => rfl | ⟨1, _⟩ => rfl)
  have e53 : idx_main_v51 (idx_main_v53 (ix3 r j k)) = ix2 r k :=
    funext fun a => Fin.ext (by match a with | ⟨0, _⟩ => rfl | ⟨1, _⟩ => rfl)
  rw [val_main_v56_apply, val_main_v49_apply, val_main_v48_apply, val_main_cst_5_apply, val_main_v47_apply,
    val_main_v44_apply, val_main_v42_apply, val_main_v40_apply, e42, val_main_v43_apply, val_main_v41_apply, e43,
    val_main_v46_apply, val_main_v45_apply, e46, val_main_v55_apply, val_main_v54_apply, val_main_v52_apply,
    val_main_v50_apply, e52, val_main_v53_apply, val_main_v51_apply, e53]
  rw [Ideal.mulf_def, Ideal.maximumf_def, Ideal.addf_def, Ideal.subf_def, Ideal.ofBits_def, Ideal.ofBits_zero_f32]
  rfl

/-- The reference's similar mask, different mask and margin are the shared terms of the ids. -/
theorem ref_sim (x0 : (⟨S512x4, .i32⟩ : BufTy).Contents (Elt Ideal)) : val_main_v37 (F := Ideal) x0 = Cert.HingeMasks.simM x0 := rfl
theorem ref_dif (x0 : (⟨S512x4, .i32⟩ : BufTy).Contents (Elt Ideal)) : val_main_v39 (F := Ideal) x0 = Cert.HingeMasks.difM x0 := rfl
theorem ref_marg (x0 : (⟨S512x4, .i32⟩ : BufTy).Contents (Elt Ideal)) : val_main_v30 (F := Ideal) x0 = Cert.HingeMasks.margM x0 := rfl

/-- The reference's row sum at r is the hinge sum of row r, over its own cosine array, the margin and the two masks. -/
theorem ref_rows (x0 : (⟨S512x4, .i32⟩ : BufTy).Contents (Elt Ideal)) (x1 : (⟨S512x256, .f32⟩ : BufTy).Contents (Elt Ideal)) (r : Fin 512) :
    val_main_v57 (F := Ideal) x0 x1 (ix1 r)
      = Cert.HingeSpec.rowG (fun i j => val_main_v14 (F := Ideal) x1 (ix2 i j)) (fun i k => Cert.HingeMasks.margM x0 (ix2 i k))
          (fun i j => Cert.HingeMasks.simM x0 (ix2 i j)) (fun i k => Cert.HingeMasks.difM x0 (ix2 i k)) r := by
  have h57 : val_main_v57 (F := Ideal) x0 x1 (ix1 r)
      = 0 + ∑ j : Fin 512, ∑ k : Fin 512, val_main_v56 (F := Ideal) x0 x1 (ix3 r j k) := by
    unfold val_main_v57
    generalize val_main_v56 (F := Ideal) x0 x1 = y0
    simp only [Host.reduceAdd, Ideal.hostReduceAdd_def]
    rw [host_sum_last23_apply y0 _ reducesTo_S512x512x512_S512_d1_2 r]
    refine congrArg (· + _) ?_
    show Ideal.ofBits .f32 0x00000000#32 = 0
    exact Ideal.ofBits_zero_f32
  rw [h57, zero_add, Finset.sum_comm]
  unfold Cert.HingeSpec.rowG
  refine Finset.sum_congr rfl fun k _ => Finset.sum_congr rfl fun j _ => ?_
  rw [v56_at, and_bits, ← mul_assoc, max_comm, sub_add_eq_add_sub', ref_sim, ref_dif, ref_marg]

end Cert.ReferenceIdeal.RefVal

end
-- ==== Proof.RefTail.lean ====
/-
  The reference's result from its row sums: the pair counts it takes as integers, whether a row has a pair, the
  divisor, and the loss.
-/
import proofs.«128016_j36679020708303_1_alg».proof.Proof.RefRead
import proofs.«128016_j36679020708303_1_alg».proof.Proof.HingeSpec
import proofs.«128016_j36679020708303_1_alg».proof.Proof.HingeMasks
import proofs.«128016_j36679020708303_1_alg».proof.Proof.LibDotPlain
import proofs.«128016_j36679020708303_1_alg».proof.Proof.LibKeepdims
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.ReadP Idealize.ShloMosaic Idealize.ShloMosaic.ValueIdx

/-! ## The masks are the shared terms -/

theorem tail_sim (x0 : (⟨S512x4, .i32⟩ : BufTy).Contents (Elt Ideal)) : val_main_v37 (F := Ideal) x0 = Cert.HingeMasks.simM x0 := rfl
theorem tail_dif (x0 : (⟨S512x4, .i32⟩ : BufTy).Contents (Elt Ideal)) : val_main_v39 (F := Ideal) x0 = Cert.HingeMasks.difM x0 := rfl

/-! ## A rank-1 index set is its coordinate range -/

def tailIdx1 {n : Nat} : (⟨1, ![n]⟩ : Shape).Idx ≃ Fin n where
  toFun i := i 0
  invFun p := ix1 p
  left_inv i := (eq_ix1 i).symm
  right_inv _ := rfl

theorem tail_sum_idx1 {M : Type*} [AddCommMonoid M] {n : Nat} (f : (⟨1, ![n]⟩ : Shape).Idx → M) :
    ∑ i, f i = ∑ a : Fin n, f (ix1 a) := by
  rw [← Equiv.sum_comp (tailIdx1 (n := n)).symm f]
  rfl

/-! ## Small non-negative words -/

/-- A small word is above zero, signed, exactly when its value is positive. -/
theorem tail_sgt_zero {w : BitVec 32} {k : ℕ} (hk : w.toNat = k) (hlt : k < 2 ^ 31) :
    IntOp.cmpi .sgt w 0#32 = 1#1 ↔ 0 < k := by
  have h0 : (0#32 : BitVec 32).toNat = 0 := rfl
  rw [StableHlo.Predicate.sgt_iff_toNat (a := w) (b := 0#32) (by omega) (by rw [h0]; omega), h0, hk]

/-- The signed maximum of a small word and one, read signed, is the maximum of its value and one. -/
theorem tail_maxsi_one {w : BitVec 32} {k : ℕ} (hk : w.toNat = k) (hlt : k < 2 ^ 31) :
    (IntOp.maxsi w 1#32).toInt = ((max k 1 : ℕ) : ℤ) := by
  have hw : w.toInt = (k : ℤ) := by rw [StableHlo.Predicate.toInt_eq_toNat_of_lt (by omega), hk]
  have h1 : (1#32 : BitVec 32).toInt = 1 := by decide
  unfold IntOp.maxsi
  split <;> rename_i hc <;> simp only [BitVec.slt, hw, h1, decide_eq_true_eq] at hc
  · rw [hw]; omega
  · rw [h1]; omega

/-- The product of two words whose values multiply to below 2³² has the product of the values. -/
theorem tail_muli {a b : BitVec 32} {p q : ℕ} (ha : a.toNat = p) (hb : b.toNat = q) (hpq : p * q < 2 ^ 32) :
    (IntOp.muli a b).toNat = p * q := by
  show (a * b).toNat = p * q
  rw [BitVec.toNat_mul, ha, hb]
  exact Nat.mod_eq_of_lt hpq

/-- The reduction of a widened [n] mask over its one axis counts its set bits. -/
theorem tail_count_all {n : Nat} (hn : n < 2 ^ 32) (mask : IVec ⟨1, ![n]⟩ 1) (hw : 1 < 32)
    (h : (⟨1, ![n]⟩ : Shape).ReducesTo [0] ⟨0, ![]⟩) {u : Shape} (hu : 0 < u.numel) (j : (⟨0, ![]⟩ : Shape).Idx) :
    (Host.reduce IntOp.addi (extui 32 mask hw) (constantI u 32 0#32) h hu j).toNat
      = (Finset.univ.filter (fun p : Fin n => mask (ix1 p) = 1#1)).card := by
  classical
  rw [Host.reduce_eq_fold]
  have hval : ∀ i, (extui 32 mask hw i).toNat = if mask i = 1#1 then 1 else 0 := fun i => StableHlo.Predicate.toNat_setWidth_bit (mask i)
  have hall : (Finset.univ.filter fun i : (⟨1, ![n]⟩ : Shape).Idx => h.drop i = j) = Finset.univ :=
    Finset.filter_true_of_mem (fun i _ => funext fun a => a.elim0)
  have hsum : ∑ i : (⟨1, ![n]⟩ : Shape).Idx, (extui 32 mask hw i).toNat
      = (Finset.univ.filter (fun p : Fin n => mask (ix1 p) = 1#1)).card := by
    rw [Finset.card_filter, tail_sum_idx1]
    exact Finset.sum_congr rfl (fun p _ => hval _)
  show (Finset.fold IntOp.addi 0#32 (extui 32 mask hw) (Finset.univ.filter fun i : (⟨1, ![n]⟩ : Shape).Idx => h.drop i = j)).toNat = _
  rw [hall, StableHlo.Predicate.toNat_fold_addi _ _ (by rw [hsum]; exact lt_of_le_of_lt (Finset.card_le_univ _) (by simpa using hn)), hsum]

/-- A count of columns of a 512-wide row is at most 512. -/
theorem tail_cnt_le (b : Fin 512 → Fin 512 → BitVec 1) (r : Fin 512) : Cert.HingeSpec.cnt b r ≤ 512 :=
  (Finset.card_le_univ _).trans_eq (Fintype.card_fin 512)

/-! ## The reference's integer bookkeeping, row by row -/

section Rows
variable (x0 : (⟨S512x4, .i32⟩ : BufTy).Contents (Elt Ideal)) (x1 : (⟨S512x256, .f32⟩ : BufTy).Contents (Elt Ideal))

/-- The two masks by coordinates. -/
local notation "sB" => (fun i j : Fin 512 => Cert.HingeMasks.simM x0 (ix2 i j))
local notation "dB" => (fun i j : Fin 512 => Cert.HingeMasks.difM x0 (ix2 i j))

theorem tail_ij_ix2 {n m : Nat} (p : Fin n) (q : Fin m) : StableHlo.Predicate.ij p q = ix2 p q := by
  funext d; match d with | ⟨0, _⟩ => rfl | ⟨1, _⟩ => rfl

/-- The count of similar columns of row r, as a word. -/
theorem tail_v59 (r : Fin 512) : (val_main_v59 (F := Ideal) x0 (ix1 r)).toNat = Cert.HingeSpec.cnt sB r := by
  unfold val_main_v59 val_main_v58 val_main_c_7 Cert.HingeSpec.cnt
  rw [tail_sim, StableHlo.Predicate.toNat_reduce_count_cols (by omega) _ natLt_1_32 reducesTo_S512x512_S512_d1 h_S_ (ix1 r)]
  refine congrArg Finset.card (Finset.filter_congr fun q _ => ?_)
  rw [tail_ij_ix2]

/-- The count of different columns of row r, as a word. -/
theorem tail_v61 (r : Fin 512) : (val_main_v61 (F := Ideal) x0 (ix1 r)).toNat = Cert.HingeSpec.cnt dB r := by
  unfold val_main_v61 val_main_v60 val_main_c_8 Cert.HingeSpec.cnt
  rw [tail_dif, StableHlo.Predicate.toNat_reduce_count_cols (by omega) _ natLt_1_32 reducesTo_S512x512_S512_d1 h_S_ (ix1 r)]
  refine congrArg Finset.card (Finset.filter_congr fun q _ => ?_)
  rw [tail_ij_ix2]

/-- The number of pairs of a row is small. -/
theorem tail_pairs_lt (r : Fin 512) : Cert.HingeSpec.pairs sB dB r < 2 ^ 31 := by
  have h := Nat.mul_le_mul (tail_cnt_le sB r) (tail_cnt_le dB r)
  unfold Cert.HingeSpec.pairs
  omega

/-- The number of pairs of row r, as a word. -/
theorem tail_v62 (r : Fin 512) : (val_main_v62 (F := Ideal) x0 (ix1 r)).toNat = Cert.HingeSpec.pairs sB dB r := by
  rw [val_main_v62_apply]
  exact tail_muli (tail_v59 x0 r) (tail_v61 x0 r) (by have := tail_pairs_lt x0 r; unfold Cert.HingeSpec.pairs at this; omega)

/-- Whether row r has a pair. -/
theorem tail_v64 (r : Fin 512) : val_main_v64 (F := Ideal) x0 (ix1 r) = 1#1 ↔ 0 < Cert.HingeSpec.pairs sB dB r := by
  rw [val_main_v64_apply, val_main_v63_apply, val_main_c_9_apply]
  exact tail_sgt_zero (tail_v62 x0 r) (tail_pairs_lt x0 r)

/-- The divisor of row r. -/
theorem tail_v67 (r : Fin 512) : val_main_v67 (F := Ideal) x0 (ix1 r) = Cert.HingeSpec.den sB dB r := by
  rw [val_main_v67_apply, val_main_v66_apply, val_main_v65_apply, val_main_c_10_apply]
  show (((IntOp.maxsi (val_main_v62 (F := Ideal) x0 (ix1 r)) 1#32).toInt : ℝ) : EReal) = _
  rw [tail_maxsi_one (tail_v62 x0 r) (tail_pairs_lt x0 r), Int.cast_natCast]
  rfl

/-- The row's term of the loss. -/
theorem tail_v69 (r : Fin 512) : val_main_v69 (F := Ideal) x0 x1 (ix1 r)
    = if 0 < Cert.HingeSpec.pairs sB dB r then Ideal.div (val_main_v57 (F := Ideal) x0 x1 (ix1 r)) (Cert.HingeSpec.den sB dB r) else 0 := by
  rw [val_main_v69_apply, val_main_v68_apply, val_main_call0_v1_apply, val_main_call0_v0_apply, val_main_cst_11_apply,
    Ideal.hostDivf_def, tail_v67]
  by_cases hp : 0 < Cert.HingeSpec.pairs sB dB r
  · rw [(tail_v64 x0 r).mpr hp, select_one, if_pos hp]
  · have hz : val_main_v64 (F := Ideal) x0 (ix1 r) = 0#1 := by
      rcases BitVec.eq_zero_or_eq_one (val_main_v64 (F := Ideal) x0 (ix1 r)) with h | h
      · exact h
      · exact absurd ((tail_v64 x0 r).mp h) hp
    rw [hz, select_zero, if_neg hp, Ideal.ofBits_def, Ideal.ofBits_zero_f32]

/-- The number of rows with a pair, as a word. -/
theorem tail_v71 (i : S_.Idx) : (val_main_v71 (F := Ideal) x0 i).toNat = Cert.HingeSpec.nValid sB dB := by
  unfold val_main_v71 val_main_v70 val_main_c_12 Cert.HingeSpec.nValid
  rw [tail_count_all (by omega) _ natLt_1_32 reducesTo_S512_S_d0 h_S_ i]
  exact congrArg Finset.card (Finset.filter_congr fun r _ => tail_v64 x0 r)

theorem tail_nValid_lt : Cert.HingeSpec.nValid sB dB < 2 ^ 31 := by
  have h : Cert.HingeSpec.nValid sB dB ≤ 512 := (Finset.card_le_univ _).trans_eq (Fintype.card_fin 512)
  omega

/-- The divisor of the loss. -/
theorem tail_v73 (i : S_.Idx) : val_main_v73 (F := Ideal) x0 i = (((max (Cert.HingeSpec.nValid sB dB) 1 : ℕ) : ℝ) : EReal) := by
  rw [val_main_v73_apply, val_main_v72_apply, val_main_c_13_apply]
  show (((IntOp.maxsi (val_main_v71 (F := Ideal) x0 i) 1#32).toInt : ℝ) : EReal) = _
  rw [tail_maxsi_one (tail_v71 x0 i) (tail_nValid_lt x0), Int.cast_natCast]

end Rows

/-- The reference's result is the loss of its row sums under the two masks. -/
theorem ref_loss (x0 : (⟨S512x4, .i32⟩ : BufTy).Contents (Elt Ideal)) (x1 : (⟨S512x256, .f32⟩ : BufTy).Contents (Elt Ideal)) :
    val_main_v75 (F := Ideal) x0 x1
      = fun _ => Cert.HingeSpec.loss (fun r => val_main_v57 (F := Ideal) x0 x1 (ix1 r))
          (fun i j => Cert.HingeMasks.simM x0 (ix2 i j)) (fun i j => Cert.HingeMasks.difM x0 (ix2 i j)) := by
  funext i
  rw [val_main_v75_apply, Ideal.hostDivf_def, val_main_v74_apply, val_main_cst_14_apply, Ideal.ofBits_def, Ideal.ofBits_zero_f32, zero_add,
    tail_sum_idx1, tail_v73]
  have hs : ∑ a : Fin 512, val_main_v69 (F := Ideal) x0 x1 (ix1 a)
      = ∑ r : Fin 512, if 0 < Cert.HingeSpec.pairs (fun i j => Cert.HingeMasks.simM x0 (ix2 i j)) (fun i j => Cert.HingeMasks.difM x0 (ix2 i j)) r
          then Ideal.div (val_main_v57 (F := Ideal) x0 x1 (ix1 r))
            (Cert.HingeSpec.den (fun i j => Cert.HingeMasks.simM x0 (ix2 i j)) (fun i j => Cert.HingeMasks.difM x0 (ix2 i j)) r)
          else 0 :=
    Finset.sum_congr rfl fun r _ => tail_v69 x0 x1 r
  rw [hs]
  rfl

end Cert.ReferenceIdeal.RefVal

end
-- ==== Proof.RefValue.lean ====
/-
  The reference's result at the extended reals, from its arguments: the loss of the rows' hinge sums over the cosine
  similarities of the features, the margin and the two masks of the ids.
-/
import proofs.«128016_j36679020708303_1_alg».proof.Proof.RefCos
import proofs.«128016_j36679020708303_1_alg».proof.Proof.RefRows
import proofs.«128016_j36679020708303_1_alg».proof.Proof.RefTail

set_option maxRecDepth 16384

noncomputable section

open scoped BigOperators

namespace Cert.ReferenceIdeal.RefVal

open Cert.ReferenceIdeal Cert.ReferenceIdeal.Gen Cert.ReferenceIdeal.ReadP Idealize.ShloMosaic Idealize.ShloMosaic.ValueIdx

/-- The reference's result as a function of the ids `x0` and the features `x1`. -/
theorem ref_value (x0 : (⟨S512x4, .i32⟩ : BufTy).Contents (Elt Ideal)) (x1 : (⟨S512x256, .f32⟩ : BufTy).Contents (Elt Ideal)) :
    val_main_v75 (F := Ideal) x0 x1
      = fun _ => Cert.HingeSpec.loss
          (Cert.HingeSpec.rowG (Cert.HingeSpec.cosG (fun a k => x1 (ix2 a k))) (fun i k => Cert.HingeMasks.margM x0 (ix2 i k))
            (fun i j => Cert.HingeMasks.simM x0 (ix2 i j)) (fun i k => Cert.HingeMasks.difM x0 (ix2 i k)))
          (fun i j => Cert.HingeMasks.simM x0 (ix2 i j)) (fun i j => Cert.HingeMasks.difM x0 (ix2 i j)) := by
  rw [ref_loss]
  funext _
  congr 1
  funext r
  rw [ref_rows]
  congr 1
  funext i j
  exact ref_cos x1 i j

end Cert.ReferenceIdeal.RefVal

end
-- ==== Proof.lean ====
/-
  The certificate of the pairwise hinge loss: a cosine-similarity kernel (one grid point: the normalised Gram matrix of
  the feature rows) followed by a hinge kernel (a 16 × 4 grid: per row tile, a running sum over four column tiles of the
  masked positive parts, kept in a scratch buffer and written out at the last tile), against a plain array program that
  materialises the 512 × 512 × 512 hinge array and sums it over two axes.

  The three frames: the two kernel programs' from the two regions' segment records (the word-level program's modules
  are the idealized program's laid out in its namespace: the ideal pass rewrote nothing, and the modules are stated at
  any float instance), the reference's from its run. The idealization rewrote no operation, so it preserves trivially.
  At the extended reals both programs end at the SAME function of the launch contents: the loss, over the rows' hinge
  sums, of the cosine similarities, the margin and the two masks. The kernel reaches it block by block: the cosine
  block is the payload of the whole feature array; a row's hinge sum is the running sum after its fourth column tile,
  the four tile sums regrouped as one sum over the 512 columns, and the factor of the different mask — a zero or a
  one — moved inside the inner sum. The reference reaches it by reading its two-axis sum as an iterated sum, by
  (a - b) + c = (a + c) - b on the extended reals (no finiteness is needed), and by counting its masks as integers
  where the kernel's host code counts them as sums of zeros and ones.
-/
import proofs.«128016_j36679020708303_1_alg».proof.Defs
import proofs.«128016_j36679020708303_1_alg».proof.Proof.Gen.Kernel
import proofs.«128016_j36679020708303_1_alg».proof.Proof.Gen.KernelIdeal
import proofs.«128016_j36679020708303_1_alg».proof.Proof.Gen.ReferenceIdeal
import proofs.«128016_j36679020708303_1_alg».proof.Proof.Gen.Pre_finite_inputs
import proofs.«128016_j36679020708303_1_alg».proof.Proof.BitsFrameRun
import proofs.«128016_j36679020708303_1_alg».proof.Proof.ValueRun
import proofs.«128016_j36679020708303_1_alg».proof.Proof.KernelValue
import proofs.«128016_j36679020708303_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the extended reals the kernel program's result (its run's last contents at the result buffer) and the
    reference's (its run's composed term) are the same loss of the launch contents, which agree. -/
theorem algebraic : Cert.algebraic_KernelIdeal_ReferenceIdeal := by
  intro m ρ m' ρ' _ hagree
  refine ⟨fun c => Cert.KernelIdeal.Gen.V6 (F := Ideal) m (Cert.KernelIdeal.Fr.outs m) c Cert.KernelIdeal.main_v45,
    Cert.KernelIdeal.Fr.run_val (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v75_eq, Cert.ReferenceIdeal.RefVal.ref_value, (hagree c).1, (hagree c).2]
  exact (Cert.KernelIdeal.Val.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
